-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_arg8 : FVec F S64x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩

abbrev nBuf : Space → Nat
  | .hbm => 16
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S10000x64, .f32⟩
  | .hbm, ⟨15, _⟩ => ⟨S10000x64, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S400x64, .f32⟩
  | .local _ .vmem, ⟨12, _⟩ => ⟨S400x64, .f32⟩
  | .local _ .vmem, ⟨13, _⟩ => ⟨S400x64, .f32⟩
  | .local _ .vmem, ⟨14, _⟩ => ⟨S400x64, .f32⟩
  | .local _ .vmem, ⟨15, _⟩ => ⟨S10000x64, .bf16⟩
  | .local _ .vmem, ⟨16, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_v0_1 : Ref sig .tc := ⟨.hbm, 14, rfl⟩
abbrev main_v0_0 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_3 : BitVec 32 := 0#32
  let v7 : BitVec 1 := Scalar.cmpi .eq arg0 c0_i32_3
  let v8 : BitVec 32 := Scalar.extui v7
  let c0_i32_4 : BitVec 32 := 0#32
  let v9 : BitVec 1 := Scalar.cmpi .ne v8 c0_i32_4
  v9

def k0_off1 (i : grid0.Coords) : Fin 2 → Nat :=
  let arg1 : BitVec 32 := BitVec.ofNat 32 (i 1).val
  let c400_i32 : BitVec 32 := 400#32
  let v24 : BitVec 32 := Scalar.muli arg1 c400_i32
  let v25 : Index := Scalar.indexCast v24
  let c0_14 : Index := 0#32
  ![v25.toNat, 0]
def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S400x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S400x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S64x64_S64x64_0_0 : ∀ a, (![0, 0] : Fin 2 → Nat) a + S64x64.size a ≤ S64x64.size a
  h_S64x64 : 0 < S64x64.numel
  broadcasts_S1x64_S400x64 : S1x64.Broadcasts S400x64
  h_S400x64 : 0 < S400x64.numel
  shapeCasts_S400x64_S400x64 : S400x64.ShapeCasts S400x64
  inb_S400x64_S400x64_0_0 : ∀ a, (![0, 0] : Fin 2 → Nat) a + S400x64.size a ≤ S400x64.size a
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  k0_off1_packedbf16 : ∀ i : grid0.Coords, ∀ (k0_h2 : k0_cond2 i = 1#1), (Rect.unit (s := S10000x64) (k0_off1 i) S400x64.size (k0_off1_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x64.size a ≤ S10000x64.size a
  hwx0_10 : ∀ i : grid0.Coords, EltTy.bits .f32 = 32 ∨ (Rect.block (s := S10000x64) S400x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S400x64.size a ≤ S10000x64.size a
  hwx0_11 : ∀ i : grid0.Coords, EltTy.bits .f32 = 32 ∨ (Rect.block (s := S10000x64) S400x64.size (cc0_transform_11 i) (hinb0_11 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v2) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v3) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S400x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S400x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | 11 => fun i => !(k0_cond3 i == 1#1) | ⟨_ + 12, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S10000x64 : Shape := ⟨2, ![10000, 64]⟩
abbrev S1x64 : Shape := ⟨2, ![1, 64]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S10000x64, .f32⟩
  | .hbm, ⟨11, _⟩ => ⟨S1x64, .f32⟩
  | .hbm, ⟨12, _⟩ => ⟨S10000x64, .f32⟩
  | .hbm, ⟨13, _⟩ => ⟨S10000x64, .f32⟩
  | .hbm, ⟨14, _⟩ => ⟨S10000x64, .f32⟩
  | .hbm, ⟨15, _⟩ => ⟨S_, .f32⟩
  | .hbm, ⟨16, _⟩ => ⟨S10000x64, .f32⟩
  | .hbm, ⟨17, _⟩ => ⟨S10000x64, .f32⟩
  | .hbm, ⟨18, _⟩ => ⟨S10000x64, .f32⟩
  | .hbm, ⟨19, _⟩ => ⟨S1x64, .f32⟩
  | .hbm, ⟨20, _⟩ => ⟨S10000x64, .f32⟩
  | .hbm, ⟨21, _⟩ => ⟨S10000x64, .f32⟩
  | .hbm, ⟨22, _⟩ => ⟨S10000x64, .f32⟩
  | .hbm, ⟨23, _⟩ => ⟨S10000x64, .f32⟩
  | .hbm, ⟨24, _⟩ => ⟨S1x64, .f32⟩
  | .hbm, ⟨25, _⟩ => ⟨S10000x64, .f32⟩
  | .hbm, ⟨26, _⟩ => ⟨S10000x64, .f32⟩
  | .hbm, ⟨27, _⟩ => ⟨S_, .f32⟩
  | .hbm, ⟨28, _⟩ => ⟨S10000x64, .f32⟩
  | .hbm, ⟨29, _⟩ => ⟨S10000x64, .f32⟩
  | .hbm, ⟨30, _⟩ => ⟨S10000x64, .f32⟩
  | .hbm, ⟨31, _⟩ => ⟨S1x64, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call1_cst : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.K.Shared.lean ====
/-
  What the case-by-case runs of the kernel body are stated over.

  The body has three conditionals on the grid coordinates (p, i), point number t = 25 p + i:
    * the first is taken at (0, 0) only (t = 0): it fills the first scratch;
    * the second is taken in phase 0 (t < 25): it fills one row block of the second scratch;
    * the third is taken in phase 1 (25 ≤ t): it writes both output blocks.
  The output windows' index map is (p, i) ↦ (i p, 0): block 0 all through phase 0, block i in phase 1. So the output
  windows are idle exactly in phase 0, and they are written back exactly at the points of phase 1 (the block index
  moves after every point of phase 1, and the last point writes back).
-/
import proofs.«120598_g45758581572075_cont_8to1_c_881_8_alg».proof.Proof.Gen.Kernel.Frame
import proofs.«120598_g45758581572075_cont_8to1_c_881_8_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions, in closed form over the grid -/

/-- "This is the first point": the condition of the conditional that fills the first scratch. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0 : ∀ t : Fin cfg0.N, cond0 (grid0.coords t) ↔ t.val % 50 = 0 :=
  (by decide +kernel : ∀ t : Fin grid0.N, cond0 (grid0.coords t) ↔ t.val % 50 = 0)

/-- "Phase 0": the condition of the conditional that fills a row block of the second scratch. -/
abbrev cond1 (i : grid0.Coords) : Prop := k0_cond2 i = 1#1
theorem hcond1 : ∀ t : Fin cfg0.N, cond1 (grid0.coords t) ↔ t.val < 25 :=
  (by decide +kernel : ∀ t : Fin grid0.N, cond1 (grid0.coords t) ↔ t.val < 25)

/-- "Phase 1": the condition of the conditional that writes the output blocks. -/
abbrev cond2 (i : grid0.Coords) : Prop := k0_cond3 i = 1#1
theorem hcond2 : ∀ t : Fin cfg0.N, cond2 (grid0.coords t) ↔ 25 ≤ t.val :=
  (by decide +kernel : ∀ t : Fin grid0.N, cond2 (grid0.coords t) ↔ 25 ≤ t.val)

/-- The row offset of the second scratch's slice at a point of phase 0: 400 times the row block. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the outputs are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
/-- The output windows are idle exactly in phase 0. -/
theorem idle10 : ∀ t : Fin cfg0.N, cfg0.idle 10 (grid0.coords t) = decide (t.val < 25) := by decide +kernel
theorem idle11 : ∀ t : Fin cfg0.N, cfg0.idle 11 (grid0.coords t) = decide (t.val < 25) := by decide +kernel
/-- The output windows are written back exactly at the points of phase 1. -/
theorem flush10 : ∀ t : Fin cfg0.N, (cfg0.win 10).flush t = decide (25 ≤ t.val) :=
  (by decide +kernel : ∀ t : Fin grid0.N, win0_10.flush t = decide (25 ≤ t.val))
theorem flush11 : ∀ t : Fin cfg0.N, (cfg0.win 11).flush t = decide (25 ≤ t.val) :=
  (by decide +kernel : ∀ t : Fin grid0.N, win0_11.flush t = decide (25 ≤ t.val))
/-- At a point of phase 1 the output windows' block is the point's row block. -/
theorem index10 : ∀ t : Fin cfg0.N, 25 ≤ t.val → win0_10.index t (0 : Fin 2) = t.val - 25 ∧ win0_10.index t (1 : Fin 2) = 0 :=
  (by decide +kernel : ∀ t : Fin grid0.N, 25 ≤ t.val → win0_10.index t (0 : Fin 2) = t.val - 25 ∧ win0_10.index t (1 : Fin 2) = 0)
theorem index11 : ∀ t : Fin cfg0.N, 25 ≤ t.val → win0_11.index t (0 : Fin 2) = t.val - 25 ∧ win0_11.index t (1 : Fin 2) = 0 :=
  (by decide +kernel : ∀ t : Fin grid0.N, 25 ≤ t.val → win0_11.index t (0 : Fin 2) = t.val - 25 ∧ win0_11.index t (1 : Fin 2) = 0)

/-! ## The memrefs the body is called with at a point -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S400x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S400x64 .f32 := win0_11.stage (cfg0.slots t 11)
abbrev hs11 (t : Fin cfg0.N) : (ms11 t).IsWhole := hstage0_11 ((cfg0.slots t 11).cast nbuf0_11)
/-- The two scratch buffers, whole. -/
abbrev sc0 : Memref sig .tc .vmem S10000x64 .bf16 := Memref.whole cc0_scratch0
abbrev sc1 : Memref sig .tc .vmem S10000x64 .bf16 := Memref.whole cc0_scratch1
abbrev hsc0 : (sc0).IsWhole := Memref.isWhole_whole _
abbrev hsc1 : (sc1).IsWhole := Memref.isWhole_whole _

/-- The class invariant, opened: both scratch buffers at some contents, and the generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

end Cert.Kernel.Hand

end
-- ==== Proof.K.RunA.lean ====
/-
  The kernel body at the first grid point, where all three stores of phase 0 happen: the whole first scratch is
  stored, then read back, and row block 0 of the second scratch is stored. The output buffers are not touched.
-/
import proofs.«120598_g45758581572075_cont_8to1_c_881_8_alg».proof.Proof.K.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- CASE A (first conditional taken, second taken, third not). From the inputs' staging buffers at their blocks, the two
    output buffers at given contents, the first scratch at anything and the second at given contents, the body runs and
    hands back: the inputs and the outputs as they were, the first scratch with pieces `LS0` written over what it held,
    the second with pieces `LS1` written over exactly what it held. The two lists are what the run finds. -/
noncomputable def runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 x11 : Vec F S400x64 .f32) (xs1 : Vec F S10000x64 .bf16) :
    Σ' (LS0 : List (View.Piece (Elt F) S10000x64 .bf16)), { LS1 : List (View.Piece (Elt F) S10000x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f LS0) ∗ (arg15.view.loc (c : Thread nD τ) ↦[arg15.view.set]{fullShare} arg15.view.writes (Elt F) (harg15.unread xs1) LS1)) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg15.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact hf10
      iexact H10
    isplitl [H11]
    · iexists _; isplitr; · ipureintro; exact hf11
      iexact H11
    isplitl [HS0]; · iexists _; iexact HS0
    iexact HS1

end Cert.Kernel.Hand

end
-- ==== Proof.K.RunB.lean ====
/-
  The kernel body at the later points of phase 0: the first scratch is only read, and one row block of the second
  scratch is stored. The output buffers are not touched.
-/
import proofs.«120598_g45758581572075_cont_8to1_c_881_8_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- CASE B (first conditional not taken, second taken, third not). The first scratch is handed over at given contents and
    handed back unchanged; the second comes back with pieces `LS1` written over exactly what it held. -/
noncomputable def runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : ¬cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 x11 : Vec F S400x64 .f32) (xs0 xs1 : Vec F S10000x64 .bf16) :
    { LS1 : List (View.Piece (Elt F) S10000x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xs0 ∗ (arg15.view.loc (c : Thread nD τ) ↦[arg15.view.set]{fullShare} arg15.view.writes (Elt F) (harg15.unread xs1) LS1)) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg14.eq_unread hfs0; obtain rfl := harg15.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact hf10
      iexact H10
    isplitl [H11]
    · iexists _; isplitr; · ipureintro; exact hf11
      iexact H11
    isplitl [HS0]
    · iexists _; isplitr; · ipureintro; exact harg14.read_unread _
      iexact HS0
    iexact HS1

end Cert.Kernel.Hand

end
-- ==== Proof.K.RunC.lean ====
/-
  The kernel body at the points of phase 1: the whole second scratch is read, and both output buffers are stored
  whole. Neither scratch is changed.
-/
import proofs.«120598_g45758581572075_cont_8to1_c_881_8_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- CASE C (first and second conditionals not taken, third taken). Both scratch buffers are handed over at given contents
    and handed back unchanged; the output buffers, handed over at anything, come back with pieces `L10` and `L11` written. -/
noncomputable def runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : ¬cond0 i) (hc1 : ¬cond1 i) (hc2 : cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (xs0 xs1 : Vec F S10000x64 .bf16) :
    Σ' (L10 : List (View.Piece (Elt F) S400x64 .f32)), { L11 : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xs0 ∗ owns (c : Thread nD τ) arg15 fullShare xs1) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg14.eq_unread hfs0; obtain rfl := harg15.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]
    · iexists _; isplitr; · ipureintro; exact harg14.read_unread _
      iexact HS0
    iexists _; isplitr; · ipureintro; exact harg15.read_unread _
    iexact HS1

end Cert.Kernel.Hand

end
-- ==== Proof.K.Pieces.lean ====
/-
  What the three runs found, named: every list of pieces a run writes into a buffer is one store of one payload of the
  loaded vectors, so the buffer reads back as that payload (a whole-buffer store) or as that payload on the stored rows
  (the row-block store into the second scratch).
-/
import proofs.«120598_g45758581572075_cont_8to1_c_881_8_alg».proof.Proof.K.RunC
import Idealize.ShloMosaic.Lib.Pipeline.Value
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets, however they are spelt. -/
theorem hz2 : (![0, 0] : Fin 2 → Nat) = fun _ => 0 := funext fun a => by fin_cases a <;> rfl

/-- Case A leaves y1's payload in the whole first scratch, whatever it held. -/
theorem runA_sc0 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 x11 : Vec F S400x64 .f32) (xs1 : Vec F S10000x64 .bf16) (f : arg14.view.ty.Contents (Elt F)) :
    arg14.view.read (Elt F) (arg14.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs1).1) = k0_pay2 x0 x2 x3 := by
  -- the run's list is one store through the whole-buffer rectangle, which covers every index
  unfold runA
  dsimp only
  sl_unfold_words
  refine (View.read_writes_eq_canon _ _ _ ?_).trans ?_
  · exact fun y => ⟨_, List.mem_singleton_self _, View.mem_set_unit_zero hz2 Facts₀.inb_S10000x64_S10000x64_0_0 y⟩
  -- so the buffer reads back as that store's payload, and each load of a whole input buffer reads its contents
  rw [View.canon_unit_zero hz2]
  simp only [View.readAt_eq_ld, Memref.IsWhole.read_unread, View.ld_unit_zero (S := S10000x128) hz2,
    View.ld_unit_zero (S := S128x64) hz2, View.ld_unit_zero (S := S1x64) hz2]

/-- Case A stores one piece into the second scratch: the point's row block, at the payload computed from the
    adjacency block, the y1 just stored, W2 and the bias row. -/
theorem runA_sc1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 x11 : Vec F S400x64 .f32) (xs1 : Vec F S10000x64 .bf16) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs1).2.1
      = [(⟨Rect.unit (s := S10000x64) (k0_off1 i) S400x64.size (k0_off1_inb i hc1), k0_pay3 x1 (k0_pay2 x0 x2 x3) x4 x5⟩ : View.Piece (Elt F) S10000x64 .bf16)] := by
  -- the rectangles agree as found; in the payload each load of a whole input buffer reads its contents, and the
  -- load of the first scratch after its one whole-buffer store reads that store's payload
  unfold runA
  dsimp only
  sl_unfold_words
  simp only [View.readAt_eq_ld, Memref.IsWhole.read_unread, View.ld_unit_zero (S := S10000x128) hz2,
    View.ld_unit_zero (S := S128x64) hz2, View.ld_unit_zero (S := S1x64) hz2, View.ld_unit_zero (S := S400x10000) hz2,
    View.ld_unit_zero (S := S64x64) hz2, View.readCov_unit_zero (S := S10000x64) _ hz2]

/-- Case B stores one piece into the second scratch: the point's row block, at the payload computed from the
    adjacency block, the first scratch's contents, W2 and the bias row. -/
theorem runB_sc1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : ¬cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 x11 : Vec F S400x64 .f32) (xs0 xs1 : Vec F S10000x64 .bf16) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs0 xs1).1
      = [(⟨Rect.unit (s := S10000x64) (k0_off1 i) S400x64.size (k0_off1_inb i hc1), k0_pay3 x1 xs0 x4 x5⟩ : View.Piece (Elt F) S10000x64 .bf16)] := by
  -- the rectangles agree as found; in the payload each load of a whole buffer reads its contents
  unfold runB
  dsimp only
  sl_unfold_words
  simp only [View.readAt_eq_ld, Memref.IsWhole.read_unread, View.ld_unit_zero (S := S1x64) hz2,
    View.ld_unit_zero (S := S400x10000) hz2, View.ld_unit_zero (S := S64x64) hz2, View.ld_unit_zero (S := S10000x64) hz2]

/-- Case C leaves the embedding block's payload in the whole first output buffer, whatever it held. -/
theorem runC_o10 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : ¬cond0 i) (hc1 : ¬cond1 i) (hc2 : cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (xs0 xs1 : Vec F S10000x64 .bf16) (f : arg12.view.ty.Contents (Elt F)) :
    arg12.view.read (Elt F) (arg12.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1) = k0_pay4 x1 xs1 := by
  -- the run's list is one store through the whole-buffer rectangle, which covers every index
  unfold runC
  dsimp only
  sl_unfold_words
  refine (View.read_writes_eq_canon _ _ _ ?_).trans ?_
  · exact fun y => ⟨_, List.mem_singleton_self _, View.mem_set_unit_zero hz2 Facts₀.inb_S400x64_S400x64_0_0 y⟩
  -- so the buffer reads back as that store's payload, and each load of a whole buffer reads its contents
  rw [View.canon_unit_zero hz2]
  simp only [View.readAt_eq_ld, Memref.IsWhole.read_unread, View.ld_unit_zero (S := S400x10000) hz2,
    View.ld_unit_zero (S := S10000x64) hz2]

/-- Case C leaves the projected block's payload in the whole second output buffer, whatever it held. -/
theorem runC_o11 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : ¬cond0 i) (hc1 : ¬cond1 i) (hc2 : cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (xs0 xs1 : Vec F S10000x64 .bf16) (f : arg13.view.ty.Contents (Elt F)) :
    arg13.view.read (Elt F) (arg13.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1) = k0_pay5 x1 xs1 x6 x7 x8 x9 := by
  -- the run's list is one store through the whole-buffer rectangle, which covers every index
  unfold runC
  dsimp only
  sl_unfold_words
  refine (View.read_writes_eq_canon _ _ _ ?_).trans ?_
  · exact fun y => ⟨_, List.mem_singleton_self _, View.mem_set_unit_zero hz2 Facts₀.inb_S400x64_S400x64_0_0 y⟩
  -- so the buffer reads back as that store's payload, and each load of a whole buffer reads its contents
  rw [View.canon_unit_zero hz2]
  simp only [View.readAt_eq_ld, Memref.IsWhole.read_unread, View.ld_unit_zero (S := S400x10000) hz2,
    View.ld_unit_zero (S := S10000x64) hz2, View.ld_unit_zero (S := S64x64) hz2, View.ld_unit_zero (S := S1x64) hz2]

end Cert.Kernel.Hand

end
-- ==== Proof.K.Named.lean ====
/-
  The kernel's values, named: what its two scratch buffers and its two outputs hold, as functions of the blocks
  the pipeline stages, through the body's own arithmetic (the skeleton's payloads).

  The grid has 50 points: point n < 25 is phase 0 at row block n, point 25 + n is phase 1 at row block n. A row block
  is 400 consecutive rows, so row r lies in block r / 400 at position r % 400.

    * the first scratch holds y1, computed once at point 0 from the whole feature array, W1 and b1;
    * the second scratch is filled one row block per point of phase 0: rows [400 n, 400 n + 400) at point n, from
      that block of the adjacency matrix, y1, W2 and b2;
    * at point 25 + n the outputs' block n is computed from block n of the adjacency matrix and the whole second
      scratch (and W3, b3, W4, b4 for the projected output).
-/
import proofs.«120598_g45758581572075_cont_8to1_c_881_8_alg».proof.Proof.Gen.Kernel.Frame
import proofs.«120598_g45758581572075_cont_8to1_c_881_8_alg».proof.Proof.Gen.Kernel.Skeleton
import Idealize.ShloMosaic.Lib.ValueIdx

noncomputable section

namespace Cert.Kernel.Named

open Idealize.ShloMosaic Idealize.ShloMosaic.TcCoe Idealize.ShloMosaic.ValueIdx Idealize.SL.Sem
open Cert.Kernel Cert.Kernel.Gen

variable {F : FTy → Type} [FloatOps F]
variable (m : (ℓ : Loc nD τ sig) → Buf (Elt F) ℓ)

/-- Grid point number `n`. -/
def pt (n : ℕ) (h : n < 50) : Fin cfg0.N := ⟨n, lt_of_lt_of_eq h N_0.symm⟩

@[simp] theorem pt_val (n : ℕ) (h : n < 50) : (pt n h).val = n := rfl

/-- The first grid point. -/
abbrev t0 : Fin cfg0.N := pt 0 (by decide)

/-- The staged blocks at a point, at their literal types: the feature array, a row block of the adjacency matrix,
    the four weight matrices and the four biases as rows. -/
abbrev bX (c : Dev nD) (t : Fin cfg0.N) : Vec F S10000x128 .f32 := iblk m c 0 t
abbrev bAdj (c : Dev nD) (t : Fin cfg0.N) : Vec F S400x10000 .f32 := iblk m c 1 t
abbrev bW1 (c : Dev nD) (t : Fin cfg0.N) : Vec F S128x64 .f32 := iblk m c 2 t
abbrev bB1 (c : Dev nD) (t : Fin cfg0.N) : Vec F S1x64 .f32 := iblk m c 3 t
abbrev bW2 (c : Dev nD) (t : Fin cfg0.N) : Vec F S64x64 .f32 := iblk m c 4 t
abbrev bB2 (c : Dev nD) (t : Fin cfg0.N) : Vec F S1x64 .f32 := iblk m c 5 t
abbrev bW3 (c : Dev nD) (t : Fin cfg0.N) : Vec F S64x64 .f32 := iblk m c 6 t
abbrev bB3 (c : Dev nD) (t : Fin cfg0.N) : Vec F S1x64 .f32 := iblk m c 7 t
abbrev bW4 (c : Dev nD) (t : Fin cfg0.N) : Vec F S64x64 .f32 := iblk m c 8 t
abbrev bB4 (c : Dev nD) (t : Fin cfg0.N) : Vec F S1x64 .f32 := iblk m c 9 t

/-- The phase-0 point that computes row `r` of the second scratch. -/
def p0 (i : S10000x64.Idx) : Fin cfg0.N := pt ((i 0).val / 400) (by have := idx2_lt0 i; omega)
/-- The phase-1 point that computes row `r` of the outputs. -/
def p1 (i : S10000x64.Idx) : Fin cfg0.N := pt (25 + (i 0).val / 400) (by have := idx2_lt0 i; omega)
/-- An entry's position inside its row block. -/
def inBlk (i : S10000x64.Idx) : S400x64.Idx := ix2 ⟨(i 0).val % 400, Nat.mod_lt _ (by decide)⟩ (i 1)

@[simp] theorem p0_val (i : S10000x64.Idx) : (p0 i).val = (i 0).val / 400 := rfl
@[simp] theorem p1_val (i : S10000x64.Idx) : (p1 i).val = 25 + (i 0).val / 400 := rfl

/-- What the first scratch holds from point 0 on. -/
def Y1 (c : Dev nD) : Vec F S10000x64 .bf16 := k0_pay2 (bX m c t0) (bW1 m c t0) (bB1 m c t0)

/-- What the second scratch holds once phase 0 is over, row by row. -/
def Y2 (c : Dev nD) : Vec F S10000x64 .bf16 := fun i =>
  k0_pay3 (bAdj m c (p0 i)) (Y1 m c) (bW2 m c (p0 i)) (bB2 m c (p0 i)) (inBlk i)

/-- The embedding output's block at a point (meaningful at the points of phase 1). -/
def embBlk (c : Dev nD) (t : Fin cfg0.N) : Vec F S400x64 .f32 := k0_pay4 (bAdj m c t) (Y2 m c)

/-- The projected output's block at a point (meaningful at the points of phase 1). -/
def zBlk (c : Dev nD) (t : Fin cfg0.N) : Vec F S400x64 .f32 :=
  k0_pay5 (bAdj m c t) (Y2 m c) (bW3 m c t) (bB3 m c t) (bW4 m c t) (bB4 m c t)

/-- The embedding output, whole: row r is taken from the block its phase-1 point computes. -/
def EmbK (c : Dev nD) : Vec F S10000x64 .f32 := fun i => embBlk m c (p1 i) (inBlk i)

/-- The projected output, whole. -/
def ZK (c : Dev nD) : Vec F S10000x64 .f32 := fun i => zBlk m c (p1 i) (inBlk i)

end Cert.Kernel.Named

end
-- ==== Proof.K.Data.lean ====
/-
  The pipeline's proof data in the naming form: what every staging buffer and both scratch buffers hold after the
  body at each grid point.

  The invariant between points. Before the first point both scratch buffers hold anything. After point n - 1 (n ≥ 1)
  the first scratch holds y1, and the second holds y2 on its rows below 400 n — the row blocks phase 0 has filled so
  far — and anything on the rows above. From n = 25 on that is all 10000 rows, so in phase 1 the second scratch IS y2.
  The outputs' buffers after a point of phase 1 hold that point's blocks of the two results; in phase 0 the output
  windows are idle and their buffers are handed back as they were found.
-/
import proofs.«120598_g45758581572075_cont_8to1_c_881_8_alg».proof.Proof.K.Shared
import proofs.«120598_g45758581572075_cont_8to1_c_881_8_alg».proof.Proof.K.Named
import Idealize.ShloMosaic.Lib.WritesUnit

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Named

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The second scratch, filled row block by row block -/

/-- Contents `d` of the second scratch agree with y2 on the rows below `400 n`. -/
def Filled (c : Dev nD) (n : ℕ) (d : Vec F S10000x64 .bf16) : Prop :=
  ∀ i : S10000x64.Idx, (i 0).val < 400 * n → d i = Y2 m c i

/-- Once every row block is filled the contents are y2. -/
theorem Filled.eq_Y2 {c : Dev nD} {n : ℕ} {d : Vec F S10000x64 .bf16} (h : Filled m c n d) (hn : 25 ≤ n) : d = Y2 m c :=
  funext fun i => h i (by have := idx2_lt0 i; omega)

theorem Filled.mono {c : Dev nD} {n n' : ℕ} {d : Vec F S10000x64 .bf16} (h : Filled m c n d) (hn : 25 ≤ n) :
    Filled m c n' d := fun i _ => h i (by have := idx2_lt0 i; omega)

/-- ONE STEP OF THE FILLING. If the second scratch agrees with y2 below row `400 t`, then after the store at point
    `t` of phase 0 — rows [400 t, 400 t + 400) overwritten by the body's payload of that point's blocks — it agrees
    with y2 below row `400 (t + 1)`: a row of the stored block reads the payload at its position inside the block,
    which is y2's definition at that row; a row below keeps what it held. -/
theorem filled_step (c : Dev nD) (t : Fin cfg0.N) (ht : t.val < 25) (f : sc1.view.ty.Contents (Elt F))
    (hd : Filled m c t.val (sc1.view.read (Elt F) f))
    (off : Fin 2 → ℕ) (hoff : off = ![400 * t.val, 0]) (inb : ∀ a, off a + S400x64.size a ≤ S10000x64.size a)
    (w : (Rect.unit (s := S10000x64) off S400x64.size inb).shape.Idx → Elt F .bf16)
    (hw : w = k0_pay3 (bAdj m c t) (Y1 m c) (bW2 m c t) (bB2 m c t)) :
    Filled m c (t.val + 1)
      (sc1.view.read (Elt F) (sc1.view.writes (Elt F) f [(⟨Rect.unit (s := S10000x64) off S400x64.size inb, w⟩ : View.Piece (Elt F) S10000x64 .bf16)])) := by
  intro i hi
  by_cases hlo : 400 * t.val ≤ (i 0).val
  · have hp : p0 i = t := Fin.ext (by rw [p0_val]; omega)
    have hx0 : (i (0 : Fin 2)).val = 400 * t.val + ((inBlk i) (0 : Fin 2)).val := by
      show (i 0).val = 400 * t.val + (i 0).val % 400
      omega
    rw [View.read_writes_cons_rows_of_mem (d := ![10000, 64]) sc1.view f inb w [] i (inBlk i) hoff hx0 rfl]
    subst hw
    unfold Y2
    rw [hp]
  · rw [View.read_writes_cons_rows_of_not_mem (d := ![10000, 64]) (W := 400) sc1.view f inb w [] i hoff rfl (Or.inl (by omega))]
    rw [View.writes_nil]
    exact hd i (by omega)

/-! ## The invariant -/

/-- The region invariant before position `n`. -/
def PhiS (c : Dev nD) : (n : ℕ) → n ≤ cfg0.N → sProp 𝕄
  | 0, _ => Pipeline.ΦA spec0 c
  | n + 1, _ => iprop(iprop(owns (c : Thread nD τ) sc0 fullShare (Y1 m c) ∗ (∃ d, ⌜Filled m c (n + 1) d⌝ ∗ owns (c : Thread nD τ) sc1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) sc0 fullShare (Y1 m c) ∗ (∃ d, ⌜Filled m c (n + 1) d⌝ ∗ owns (c : Thread nD τ) sc1 fullShare d)) ∗ (∃ r, prngReg c r)) := rfl

theorem PhiS_pos (c : Dev nD) (n : ℕ) (h : n ≤ cfg0.N) (hz : n ≠ 0) :
    PhiS m c n h = iprop(iprop(owns (c : Thread nD τ) sc0 fullShare (Y1 m c) ∗ (∃ d, ⌜Filled m c n d⌝ ∗ owns (c : Thread nD τ) sc1 fullShare d)) ∗ (∃ r, prngReg c r)) := by
  cases n with
  | zero => exact absurd rfl hz
  | succ n => rfl

/-! ## The proof data -/

/-- The arrays as the region finds them; after the body at point `t` each input's buffer at its block, the outputs'
    at that point's blocks of the two results; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => embBlk m c t
    | ⟨11, _⟩ => zBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = embBlk m c t := by dsimp only [dats]
theorem after11 (c : Dev nD) (t : Fin cfg0.N) : (dats m 0 c).after 11 t = zBlk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

end Cert.Kernel.Hand

end
-- ==== Proof.K.Body.lean ====
/-
  The body obligation: at every grid point the kernel body, started from the invariant and the staged blocks, ends
  in the invariant of the next point with every staging buffer at what the proof data says.

  Point 0: the first scratch, found at anything, is left at y1; the second, found at anything, is left with row block 0
  at y2's rows. A later point of phase 0: the first scratch is y1 and stays; the second, holding y2 below row 400 t,
  is left holding it below row 400 (t + 1). In phase 0 the output buffers are untouched and handed back as found. A
  point of phase 1: all 25 row blocks are filled, so the second scratch is y2; both scratch buffers stay, and the
  output buffers are left at the point's blocks of the embedding and of the projected result.
-/
import proofs.«120598_g45758581572075_cont_8to1_c_881_8_alg».proof.Proof.K.Pieces
import proofs.«120598_g45758581572075_cont_8to1_c_881_8_alg».proof.Proof.K.Data
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Named Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 14400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  by_cases h1 : t.val < 25
  · -- phase 0: the output windows are idle and not written back
    have hi10 : cfg0.idle 10 (grid0.coords t) = true := by rw [idle10 t]; exact decide_eq_true h1
    have hi11 : cfg0.idle 11 (grid0.coords t) = true := by rw [idle11 t]; exact decide_eq_true h1
    have hf10 : (cfg0.win 10).flush t = false := by rw [flush10 t]; exact decide_eq_false (by omega)
    have hf11 : (cfg0.win 11).flush t = false := by rw [flush11 t]; exact decide_eq_false (by omega)
    rw [Dat.leavesExact_idle _ 10 t hi10 hf10, Dat.leavesExact_idle _ 11 t hi11 hf11]
    by_cases hz : t.val = 0
    · -- the first point
      have ht0 : t = t0 := Fin.ext hz
      have hY : k0_pay2 (iblk m c 0 t) (iblk m c 2 t) (iblk m c 3 t) = Y1 m c := by rw [ht0]; rfl
      rw [PhiS_castSucc m c t, PhiS_zero m c _ _ hz, PhiA_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA c (grid0.coords t) _ _ _ _ _ _ _ _ _ _ _ _ _ _ _ _ _ _ _ _ _ _ _ _ _ _ _ _ ((hcond0 t).mpr (by omega)) ((hcond1 t).mpr h1) (fun h => absurd ((hcond2 t).mp h) (by omega)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) ((dats m 0 c).before 11 t d11) e1).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexact HS1
      iintro ⟨H0, H1, H2, H3, H4, H5, H6, H7, H8, H9, H10, H11, ⟨%es0, HS0⟩, HS1⟩
      isplitl [HS0 HS1 Hg]
      · isplitl [HS0 HS1]
        · isplitl [HS0]
          · unfold owns; iexists _; isplitr
            swap; · iexact HS0
            ipureintro
            exact (runA_sc0 c _ _ _ _ _ _ _ _ _ _ _ _ _ _ _ _ _ _ _ _ _ _ _ _ _ _ _ _ _ _ _ _ _ _ _ _ _ _ _ _ _ _ _ _ _ es0).trans hY
          · iexists _; isplitr
            swap
            · unfold owns; iexists _; isplitr
              swap; · iexact HS1
              ipureintro; rfl
            ipureintro
            rw [runA_sc1]
            refine filled_step m c t h1 _ ?_ _ (off1_eq t h1) _ _ ?_
            · intro i hi; exact absurd hi (by omega)
            · exact congrArg (fun y => k0_pay3 (iblk m c 1 t) y (iblk m c 4 t) (iblk m c 5 t)) hY
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
    · -- a later point of phase 0
      rw [PhiS_castSucc m c t, PhiS_pos m c _ _ hz]
      iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB c (grid0.coords t) _ _ _ _ _ _ _ _ _ _ _ _ _ _ _ _ _ _ _ _ _ _ _ _ _ _ _ _ (fun h => absurd ((hcond0 t).mp h) (by omega)) ((hcond1 t).mpr h1) (fun h => absurd ((hcond2 t).mp h) (by omega)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) ((dats m 0 c).before 11 t d11) (Y1 m c) ds1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            rw [runB_sc1]
            refine filled_step m c t h1 _ ?_ _ (off1_eq t h1) _ _ rfl
            rw [Memref.IsWhole.read_unread]; exact hds1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
  · -- phase 1: the output windows are live, and written back
    have hi10 : cfg0.idle 10 (grid0.coords t) = false := by rw [idle10 t]; exact decide_eq_false h1
    have hi11 : cfg0.idle 11 (grid0.coords t) = false := by rw [idle11 t]; exact decide_eq_false h1
    rw [show (dats m 0 c).leavesExact 10 t = owns (c : Thread nD τ) (ms10 t) fullShare ((dats m 0 c).after 10 t) from by
      unfold Dat.leavesExact; rw [hi10], after10]
    rw [show (dats m 0 c).leavesExact 11 t = owns (c : Thread nD τ) (ms11 t) fullShare ((dats m 0 c).after 11 t) from by
      unfold Dat.leavesExact; rw [hi11], after11]
    have hz : t.val ≠ 0 := by omega
    rw [PhiS_castSucc m c t, PhiS_pos m c _ _ hz]
    iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl : ds1 = Y2 m c := hds1.eq_Y2 m (by omega)
    iapply ((runC c (grid0.coords t) _ _ _ _ _ _ _ _ _ _ _ _ _ _ _ _ _ _ _ _ _ _ _ _ _ _ _ _ (fun h => absurd ((hcond0 t).mp h) (by omega)) (fun h => h1 ((hcond1 t).mp h)) ((hcond2 t).mpr (by omega)) (iblk m c 0 t) (iblk m c 1 t) (iblk m c 2 t) (iblk m c 3 t) (iblk m c 4 t) (iblk m c 5 t) (iblk m c 6 t) (iblk m c 7 t) (iblk m c 8 t) (iblk m c 9 t) (Y1 m c) (Y2 m c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, ⟨%f10, H10⟩, ⟨%f11, H11⟩, HS0, HS1⟩
    isplitl [HS0 HS1 Hg]
    · isplitl [HS0 HS1]
      · isplitl [HS0]
        · iexact HS0
        · iexists _; isplitr
          swap; · iexact HS1
          ipureintro
          exact fun i _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro
      exact runC_o10 c _ _ _ _ _ _ _ _ _ _ _ _ _ _ _ _ _ _ _ _ _ _ _ _ _ _ _ _ _ _ _ _ _ _ _ _ _ _ _ _ _ _ _ _ f10
    unfold owns; iexists _; isplitr
    swap; · iexact H11
    ipureintro
    exact runC_o11 c _ _ _ _ _ _ _ _ _ _ _ _ _ _ _ _ _ _ _ _ _ _ _ _ _ _ _ _ _ _ _ _ _ _ _ _ _ _ _ _ _ _ _ _ f11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨⟨HS0, ⟨%ds1, -, HS1⟩⟩, Hg⟩
  isplitl [HS0 HS1]
  · isplitl [HS0]
    · iexists _; iexact HS0
    iexists _; iexact HS1
  iexact Hg

end Cert.Kernel.Hand

end
-- ==== Proof.K.Main.lean ====
/-
  The run: from any memory with zero counters every weakly fair execution of the program terminates, and ends with
  every array of the pipeline at what the proof data computes — an input at its launch contents, an output at its
  launch contents overwritten block by block by what the body left at each write-back — and every other buffer as the
  region found it. The frame claim is that run read at the ten argument arrays.
-/
import proofs.«120598_g45758581572075_cont_8to1_c_881_8_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Named

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs (terminates, no fault) and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.KI.Shared.lean ====
/-
  What the case-by-case runs of the kernel body are stated over.

  The body has three conditionals on the grid coordinates (p, i), point number t = 25 p + i:
    * the first is taken at (0, 0) only (t = 0): it fills the first scratch;
    * the second is taken in phase 0 (t < 25): it fills one row block of the second scratch;
    * the third is taken in phase 1 (25 ≤ t): it writes both output blocks.
  The output windows' index map is (p, i) ↦ (i p, 0): block 0 all through phase 0, block i in phase 1. So the output
  windows are idle exactly in phase 0, and they are written back exactly at the points of phase 1 (the block index
  moves after every point of phase 1, and the last point writes back).
-/
import proofs.«120598_g45758581572075_cont_8to1_c_881_8_alg».proof.Proof.Gen.KernelIdeal.Frame
import proofs.«120598_g45758581572075_cont_8to1_c_881_8_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions, in closed form over the grid -/

/-- "This is the first point": the condition of the conditional that fills the first scratch. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0 : ∀ t : Fin cfg0.N, cond0 (grid0.coords t) ↔ t.val % 50 = 0 :=
  (by decide +kernel : ∀ t : Fin grid0.N, cond0 (grid0.coords t) ↔ t.val % 50 = 0)

/-- "Phase 0": the condition of the conditional that fills a row block of the second scratch. -/
abbrev cond1 (i : grid0.Coords) : Prop := k0_cond2 i = 1#1
theorem hcond1 : ∀ t : Fin cfg0.N, cond1 (grid0.coords t) ↔ t.val < 25 :=
  (by decide +kernel : ∀ t : Fin grid0.N, cond1 (grid0.coords t) ↔ t.val < 25)

/-- "Phase 1": the condition of the conditional that writes the output blocks. -/
abbrev cond2 (i : grid0.Coords) : Prop := k0_cond3 i = 1#1
theorem hcond2 : ∀ t : Fin cfg0.N, cond2 (grid0.coords t) ↔ 25 ≤ t.val :=
  (by decide +kernel : ∀ t : Fin grid0.N, cond2 (grid0.coords t) ↔ 25 ≤ t.val)

/-- The row offset of the second scratch's slice at a point of phase 0: 400 times the row block. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the outputs are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
/-- The output windows are idle exactly in phase 0. -/
theorem idle10 : ∀ t : Fin cfg0.N, cfg0.idle 10 (grid0.coords t) = decide (t.val < 25) := by decide +kernel
theorem idle11 : ∀ t : Fin cfg0.N, cfg0.idle 11 (grid0.coords t) = decide (t.val < 25) := by decide +kernel
/-- The output windows are written back exactly at the points of phase 1. -/
theorem flush10 : ∀ t : Fin cfg0.N, (cfg0.win 10).flush t = decide (25 ≤ t.val) :=
  (by decide +kernel : ∀ t : Fin grid0.N, win0_10.flush t = decide (25 ≤ t.val))
theorem flush11 : ∀ t : Fin cfg0.N, (cfg0.win 11).flush t = decide (25 ≤ t.val) :=
  (by decide +kernel : ∀ t : Fin grid0.N, win0_11.flush t = decide (25 ≤ t.val))
/-- At a point of phase 1 the output windows' block is the point's row block. -/
theorem index10 : ∀ t : Fin cfg0.N, 25 ≤ t.val → win0_10.index t (0 : Fin 2) = t.val - 25 ∧ win0_10.index t (1 : Fin 2) = 0 :=
  (by decide +kernel : ∀ t : Fin grid0.N, 25 ≤ t.val → win0_10.index t (0 : Fin 2) = t.val - 25 ∧ win0_10.index t (1 : Fin 2) = 0)
theorem index11 : ∀ t : Fin cfg0.N, 25 ≤ t.val → win0_11.index t (0 : Fin 2) = t.val - 25 ∧ win0_11.index t (1 : Fin 2) = 0 :=
  (by decide +kernel : ∀ t : Fin grid0.N, 25 ≤ t.val → win0_11.index t (0 : Fin 2) = t.val - 25 ∧ win0_11.index t (1 : Fin 2) = 0)

/-! ## The memrefs the body is called with at a point -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S400x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S400x64 .f32 := win0_11.stage (cfg0.slots t 11)
abbrev hs11 (t : Fin cfg0.N) : (ms11 t).IsWhole := hstage0_11 ((cfg0.slots t 11).cast nbuf0_11)
/-- The two scratch buffers, whole. -/
abbrev sc0 : Memref sig .tc .vmem S10000x64 .bf16 := Memref.whole cc0_scratch0
abbrev sc1 : Memref sig .tc .vmem S10000x64 .bf16 := Memref.whole cc0_scratch1
abbrev hsc0 : (sc0).IsWhole := Memref.isWhole_whole _
abbrev hsc1 : (sc1).IsWhole := Memref.isWhole_whole _

/-- The class invariant, opened: both scratch buffers at some contents, and the generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

end Cert.KernelIdeal.Hand

end
-- ==== Proof.KI.RunA.lean ====
/-
  The kernel body at the first grid point, where all three stores of phase 0 happen: the whole first scratch is
  stored, then read back, and row block 0 of the second scratch is stored. The output buffers are not touched.
-/
import proofs.«120598_g45758581572075_cont_8to1_c_881_8_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- CASE A (first conditional taken, second taken, third not). From the inputs' staging buffers at their blocks, the two
    output buffers at given contents, the first scratch at anything and the second at given contents, the body runs and
    hands back: the inputs and the outputs as they were, the first scratch with pieces `LS0` written over what it held,
    the second with pieces `LS1` written over exactly what it held. The two lists are what the run finds. -/
noncomputable def runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 x11 : Vec F S400x64 .f32) (xs1 : Vec F S10000x64 .bf16) :
    Σ' (LS0 : List (View.Piece (Elt F) S10000x64 .bf16)), { LS1 : List (View.Piece (Elt F) S10000x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f LS0) ∗ (arg15.view.loc (c : Thread nD τ) ↦[arg15.view.set]{fullShare} arg15.view.writes (Elt F) (harg15.unread xs1) LS1)) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg15.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact hf10
      iexact H10
    isplitl [H11]
    · iexists _; isplitr; · ipureintro; exact hf11
      iexact H11
    isplitl [HS0]; · iexists _; iexact HS0
    iexact HS1

end Cert.KernelIdeal.Hand

end
-- ==== Proof.KI.RunB.lean ====
/-
  The kernel body at the later points of phase 0: the first scratch is only read, and one row block of the second
  scratch is stored. The output buffers are not touched.
-/
import proofs.«120598_g45758581572075_cont_8to1_c_881_8_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- CASE B (first conditional not taken, second taken, third not). The first scratch is handed over at given contents and
    handed back unchanged; the second comes back with pieces `LS1` written over exactly what it held. -/
noncomputable def runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : ¬cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 x11 : Vec F S400x64 .f32) (xs0 xs1 : Vec F S10000x64 .bf16) :
    { LS1 : List (View.Piece (Elt F) S10000x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xs0 ∗ (arg15.view.loc (c : Thread nD τ) ↦[arg15.view.set]{fullShare} arg15.view.writes (Elt F) (harg15.unread xs1) LS1)) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg14.eq_unread hfs0; obtain rfl := harg15.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact hf10
      iexact H10
    isplitl [H11]
    · iexists _; isplitr; · ipureintro; exact hf11
      iexact H11
    isplitl [HS0]
    · iexists _; isplitr; · ipureintro; exact harg14.read_unread _
      iexact HS0
    iexact HS1

end Cert.KernelIdeal.Hand

end
-- ==== Proof.KI.RunC.lean ====
/-
  The kernel body at the points of phase 1: the whole second scratch is read, and both output buffers are stored
  whole. Neither scratch is changed.
-/
import proofs.«120598_g45758581572075_cont_8to1_c_881_8_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- CASE C (first and second conditionals not taken, third taken). Both scratch buffers are handed over at given contents
    and handed back unchanged; the output buffers, handed over at anything, come back with pieces `L10` and `L11` written. -/
noncomputable def runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : ¬cond0 i) (hc1 : ¬cond1 i) (hc2 : cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (xs0 xs1 : Vec F S10000x64 .bf16) :
    Σ' (L10 : List (View.Piece (Elt F) S400x64 .f32)), { L11 : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xs0 ∗ owns (c : Thread nD τ) arg15 fullShare xs1) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg14.eq_unread hfs0; obtain rfl := harg15.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]
    · iexists _; isplitr; · ipureintro; exact harg14.read_unread _
      iexact HS0
    iexists _; isplitr; · ipureintro; exact harg15.read_unread _
    iexact HS1

end Cert.KernelIdeal.Hand

end
-- ==== Proof.KI.Pieces.lean ====
/-
  What the three runs found, named: every list of pieces a run writes into a buffer is one store of one payload of the
  loaded vectors, so the buffer reads back as that payload (a whole-buffer store) or as that payload on the stored rows
  (the row-block store into the second scratch).
-/
import proofs.«120598_g45758581572075_cont_8to1_c_881_8_alg».proof.Proof.KI.RunC
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets, however they are spelt. -/
theorem hz2 : (![0, 0] : Fin 2 → Nat) = fun _ => 0 := funext fun a => by fin_cases a <;> rfl

/-- Case A leaves y1's payload in the whole first scratch, whatever it held. -/
theorem runA_sc0 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 x11 : Vec F S400x64 .f32) (xs1 : Vec F S10000x64 .bf16) (f : arg14.view.ty.Contents (Elt F)) :
    arg14.view.read (Elt F) (arg14.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs1).1) = k0_pay2 x0 x2 x3 := by
  -- the run's list is one store through the whole-buffer rectangle, which covers every index
  unfold runA
  dsimp only
  sl_unfold_words
  refine (View.read_writes_eq_canon _ _ _ ?_).trans ?_
  · exact fun y => ⟨_, List.mem_singleton_self _, View.mem_set_unit_zero hz2 Facts₀.inb_S10000x64_S10000x64_0_0 y⟩
  -- so the buffer reads back as that store's payload, and each load of a whole input buffer reads its contents
  rw [View.canon_unit_zero hz2]
  simp only [View.readAt_eq_ld, Memref.IsWhole.read_unread, View.ld_unit_zero (S := S10000x128) hz2,
    View.ld_unit_zero (S := S128x64) hz2, View.ld_unit_zero (S := S1x64) hz2]

/-- Case A stores one piece into the second scratch: the point's row block, at the payload computed from the
    adjacency block, the y1 just stored, W2 and the bias row. -/
theorem runA_sc1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 x11 : Vec F S400x64 .f32) (xs1 : Vec F S10000x64 .bf16) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs1).2.1
      = [(⟨Rect.unit (s := S10000x64) (k0_off1 i) S400x64.size (k0_off1_inb i hc1), k0_pay3 x1 (k0_pay2 x0 x2 x3) x4 x5⟩ : View.Piece (Elt F) S10000x64 .bf16)] := by
  -- the rectangles agree as found; in the payload each load of a whole input buffer reads its contents, and the
  -- load of the first scratch after its one whole-buffer store reads that store's payload
  unfold runA
  dsimp only
  sl_unfold_words
  simp only [View.readAt_eq_ld, Memref.IsWhole.read_unread, View.ld_unit_zero (S := S10000x128) hz2,
    View.ld_unit_zero (S := S128x64) hz2, View.ld_unit_zero (S := S1x64) hz2, View.ld_unit_zero (S := S400x10000) hz2,
    View.ld_unit_zero (S := S64x64) hz2, View.readCov_unit_zero (S := S10000x64) _ hz2]

/-- Case B stores one piece into the second scratch: the point's row block, at the payload computed from the
    adjacency block, the first scratch's contents, W2 and the bias row. -/
theorem runB_sc1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : ¬cond0 i) (hc1 : cond1 i) (hc2 : ¬cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 x11 : Vec F S400x64 .f32) (xs0 xs1 : Vec F S10000x64 .bf16) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 x10 x11 xs0 xs1).1
      = [(⟨Rect.unit (s := S10000x64) (k0_off1 i) S400x64.size (k0_off1_inb i hc1), k0_pay3 x1 xs0 x4 x5⟩ : View.Piece (Elt F) S10000x64 .bf16)] := by
  -- the rectangles agree as found; in the payload each load of a whole buffer reads its contents
  unfold runB
  dsimp only
  sl_unfold_words
  simp only [View.readAt_eq_ld, Memref.IsWhole.read_unread, View.ld_unit_zero (S := S1x64) hz2,
    View.ld_unit_zero (S := S400x10000) hz2, View.ld_unit_zero (S := S64x64) hz2, View.ld_unit_zero (S := S10000x64) hz2]

/-- Case C leaves the embedding block's payload in the whole first output buffer, whatever it held. -/
theorem runC_o10 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : ¬cond0 i) (hc1 : ¬cond1 i) (hc2 : cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (xs0 xs1 : Vec F S10000x64 .bf16) (f : arg12.view.ty.Contents (Elt F)) :
    arg12.view.read (Elt F) (arg12.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1) = k0_pay4 x1 xs1 := by
  -- the run's list is one store through the whole-buffer rectangle, which covers every index
  unfold runC
  dsimp only
  sl_unfold_words
  refine (View.read_writes_eq_canon _ _ _ ?_).trans ?_
  · exact fun y => ⟨_, List.mem_singleton_self _, View.mem_set_unit_zero hz2 Facts₀.inb_S400x64_S400x64_0_0 y⟩
  -- so the buffer reads back as that store's payload, and each load of a whole buffer reads its contents
  rw [View.canon_unit_zero hz2]
  simp only [View.readAt_eq_ld, Memref.IsWhole.read_unread, View.ld_unit_zero (S := S400x10000) hz2,
    View.ld_unit_zero (S := S10000x64) hz2]

/-- Case C leaves the projected block's payload in the whole second output buffer, whatever it held. -/
theorem runC_o11 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S400x64 .f32) (harg12 : arg12.IsWhole) (arg13 : Memref sig .tc .vmem S400x64 .f32) (harg13 : arg13.IsWhole) (arg14 : Memref sig .tc .vmem S10000x64 .bf16) (harg14 : arg14.IsWhole) (arg15 : Memref sig .tc .vmem S10000x64 .bf16) (harg15 : arg15.IsWhole) (hc0 : ¬cond0 i) (hc1 : ¬cond1 i) (hc2 : cond2 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (xs0 xs1 : Vec F S10000x64 .bf16) (f : arg13.view.ty.Contents (Elt F)) :
    arg13.view.read (Elt F) (arg13.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1) = k0_pay5 x1 xs1 x6 x7 x8 x9 := by
  -- the run's list is one store through the whole-buffer rectangle, which covers every index
  unfold runC
  dsimp only
  sl_unfold_words
  refine (View.read_writes_eq_canon _ _ _ ?_).trans ?_
  · exact fun y => ⟨_, List.mem_singleton_self _, View.mem_set_unit_zero hz2 Facts₀.inb_S400x64_S400x64_0_0 y⟩
  -- so the buffer reads back as that store's payload, and each load of a whole buffer reads its contents
  rw [View.canon_unit_zero hz2]
  simp only [View.readAt_eq_ld, Memref.IsWhole.read_unread, View.ld_unit_zero (S := S400x10000) hz2,
    View.ld_unit_zero (S := S10000x64) hz2, View.ld_unit_zero (S := S64x64) hz2, View.ld_unit_zero (S := S1x64) hz2]

end Cert.KernelIdeal.Hand

end
-- ==== Proof.KI.Named.lean ====
/-
  The kernel's values, named: what its two scratch buffers and its two outputs hold, as functions of the blocks
  the pipeline stages, through the body's own arithmetic (the skeleton's payloads).

  The grid has 50 points: point n < 25 is phase 0 at row block n, point 25 + n is phase 1 at row block n. A row block
  is 400 consecutive rows, so row r lies in block r / 400 at position r % 400.

    * the first scratch holds y1, computed once at point 0 from the whole feature array, W1 and b1;
    * the second scratch is filled one row block per point of phase 0: rows [400 n, 400 n + 400) at point n, from
      that block of the adjacency matrix, y1, W2 and b2;
    * at point 25 + n the outputs' block n is computed from block n of the adjacency matrix and the whole second
      scratch (and W3, b3, W4, b4 for the projected output).
-/
import proofs.«120598_g45758581572075_cont_8to1_c_881_8_alg».proof.Proof.Gen.KernelIdeal.Frame
import proofs.«120598_g45758581572075_cont_8to1_c_881_8_alg».proof.Proof.Gen.KernelIdeal.Skeleton
import Idealize.ShloMosaic.Lib.ValueIdx

noncomputable section

namespace Cert.KernelIdeal.Named

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- Grid point number `n`. -/
def pt (n : ℕ) (h : n < 50) : Fin cfg0.N := ⟨n, lt_of_lt_of_eq h N_0.symm⟩

@[simp] theorem pt_val (n : ℕ) (h : n < 50) : (pt n h).val = n := rfl

/-- The first grid point. -/
abbrev t0 : Fin cfg0.N := pt 0 (by decide)

/-- The staged blocks at a point, at their literal types: the feature array, a row block of the adjacency matrix,
    the four weight matrices and the four biases as rows. -/
abbrev bX (c : Dev nD) (t : Fin cfg0.N) : Vec F S10000x128 .f32 := iblk m c 0 t
abbrev bAdj (c : Dev nD) (t : Fin cfg0.N) : Vec F S400x10000 .f32 := iblk m c 1 t
abbrev bW1 (c : Dev nD) (t : Fin cfg0.N) : Vec F S128x64 .f32 := iblk m c 2 t
abbrev bB1 (c : Dev nD) (t : Fin cfg0.N) : Vec F S1x64 .f32 := iblk m c 3 t
abbrev bW2 (c : Dev nD) (t : Fin cfg0.N) : Vec F S64x64 .f32 := iblk m c 4 t
abbrev bB2 (c : Dev nD) (t : Fin cfg0.N) : Vec F S1x64 .f32 := iblk m c 5 t
abbrev bW3 (c : Dev nD) (t : Fin cfg0.N) : Vec F S64x64 .f32 := iblk m c 6 t
abbrev bB3 (c : Dev nD) (t : Fin cfg0.N) : Vec F S1x64 .f32 := iblk m c 7 t
abbrev bW4 (c : Dev nD) (t : Fin cfg0.N) : Vec F S64x64 .f32 := iblk m c 8 t
abbrev bB4 (c : Dev nD) (t : Fin cfg0.N) : Vec F S1x64 .f32 := iblk m c 9 t

/-- The phase-0 point that computes row `r` of the second scratch. -/
def p0 (i : S10000x64.Idx) : Fin cfg0.N := pt ((i 0).val / 400) (by have := idx2_lt0 i; omega)
/-- The phase-1 point that computes row `r` of the outputs. -/
def p1 (i : S10000x64.Idx) : Fin cfg0.N := pt (25 + (i 0).val / 400) (by have := idx2_lt0 i; omega)
/-- An entry's position inside its row block. -/
def inBlk (i : S10000x64.Idx) : S400x64.Idx := ix2 ⟨(i 0).val % 400, Nat.mod_lt _ (by decide)⟩ (i 1)

@[simp] theorem p0_val (i : S10000x64.Idx) : (p0 i).val = (i 0).val / 400 := rfl
@[simp] theorem p1_val (i : S10000x64.Idx) : (p1 i).val = 25 + (i 0).val / 400 := rfl

/-- What the first scratch holds from point 0 on. -/
def Y1 (c : Dev nD) : Vec F S10000x64 .bf16 := k0_pay2 (bX m c t0) (bW1 m c t0) (bB1 m c t0)

/-- What the second scratch holds once phase 0 is over, row by row. -/
def Y2 (c : Dev nD) : Vec F S10000x64 .bf16 := fun i =>
  k0_pay3 (bAdj m c (p0 i)) (Y1 m c) (bW2 m c (p0 i)) (bB2 m c (p0 i)) (inBlk i)

/-- The embedding output's block at a point (meaningful at the points of phase 1). -/
def embBlk (c : Dev nD) (t : Fin cfg0.N) : Vec F S400x64 .f32 := k0_pay4 (bAdj m c t) (Y2 m c)

/-- The projected output's block at a point (meaningful at the points of phase 1). -/
def zBlk (c : Dev nD) (t : Fin cfg0.N) : Vec F S400x64 .f32 :=
  k0_pay5 (bAdj m c t) (Y2 m c) (bW3 m c t) (bB3 m c t) (bW4 m c t) (bB4 m c t)

/-- The embedding output, whole: row r is taken from the block its phase-1 point computes. -/
def EmbK (c : Dev nD) : Vec F S10000x64 .f32 := fun i => embBlk m c (p1 i) (inBlk i)

/-- The projected output, whole. -/
def ZK (c : Dev nD) : Vec F S10000x64 .f32 := fun i => zBlk m c (p1 i) (inBlk i)

end Cert.KernelIdeal.Named

end
-- ==== Proof.KI.Data.lean ====
/-
  The pipeline's proof data in the naming form: what every staging buffer and both scratch buffers hold after the
  body at each grid point.

  The invariant between points. Before the first point both scratch buffers hold anything. After point n - 1 (n ≥ 1)
  the first scratch holds y1, and the second holds y2 on its rows below 400 n — the row blocks phase 0 has filled so
  far — and anything on the rows above. From n = 25 on that is all 10000 rows, so in phase 1 the second scratch IS y2.
  The outputs' buffers after a point of phase 1 hold that point's blocks of the two results; in phase 0 the output
  windows are idle and their buffers are handed back as they were found.
-/
import proofs.«120598_g45758581572075_cont_8to1_c_881_8_alg».proof.Proof.KI.Shared
import proofs.«120598_g45758581572075_cont_8to1_c_881_8_alg».proof.Proof.KI.Named
import Idealize.ShloMosaic.Lib.WritesUnit

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Named

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The second scratch, filled row block by row block -/

/-- Contents `d` of the second scratch agree with y2 on the rows below `400 n`. -/
def Filled (c : Dev nD) (n : ℕ) (d : Vec F S10000x64 .bf16) : Prop :=
  ∀ i : S10000x64.Idx, (i 0).val < 400 * n → d i = Y2 m c i

/-- Once every row block is filled the contents are y2. -/
theorem Filled.eq_Y2 {c : Dev nD} {n : ℕ} {d : Vec F S10000x64 .bf16} (h : Filled m c n d) (hn : 25 ≤ n) : d = Y2 m c :=
  funext fun i => h i (by have := idx2_lt0 i; omega)

theorem Filled.mono {c : Dev nD} {n n' : ℕ} {d : Vec F S10000x64 .bf16} (h : Filled m c n d) (hn : 25 ≤ n) :
    Filled m c n' d := fun i _ => h i (by have := idx2_lt0 i; omega)

/-- ONE STEP OF THE FILLING. If the second scratch agrees with y2 below row `400 t`, then after the store at point
    `t` of phase 0 — rows [400 t, 400 t + 400) overwritten by the body's payload of that point's blocks — it agrees
    with y2 below row `400 (t + 1)`: a row of the stored block reads the payload at its position inside the block,
    which is y2's definition at that row; a row below keeps what it held. -/
theorem filled_step (c : Dev nD) (t : Fin cfg0.N) (ht : t.val < 25) (f : sc1.view.ty.Contents (Elt F))
    (hd : Filled m c t.val (sc1.view.read (Elt F) f))
    (off : Fin 2 → ℕ) (hoff : off = ![400 * t.val, 0]) (inb : ∀ a, off a + S400x64.size a ≤ S10000x64.size a)
    (w : (Rect.unit (s := S10000x64) off S400x64.size inb).shape.Idx → Elt F .bf16)
    (hw : w = k0_pay3 (bAdj m c t) (Y1 m c) (bW2 m c t) (bB2 m c t)) :
    Filled m c (t.val + 1)
      (sc1.view.read (Elt F) (sc1.view.writes (Elt F) f [(⟨Rect.unit (s := S10000x64) off S400x64.size inb, w⟩ : View.Piece (Elt F) S10000x64 .bf16)])) := by
  intro i hi
  by_cases hlo : 400 * t.val ≤ (i 0).val
  · have hp : p0 i = t := Fin.ext (by rw [p0_val]; omega)
    have hx0 : (i (0 : Fin 2)).val = 400 * t.val + ((inBlk i) (0 : Fin 2)).val := by
      show (i 0).val = 400 * t.val + (i 0).val % 400
      omega
    rw [View.read_writes_cons_rows_of_mem (d := ![10000, 64]) sc1.view f inb w [] i (inBlk i) hoff hx0 rfl]
    subst hw
    unfold Y2
    rw [hp]
  · rw [View.read_writes_cons_rows_of_not_mem (d := ![10000, 64]) (W := 400) sc1.view f inb w [] i hoff rfl (Or.inl (by omega))]
    rw [View.writes_nil]
    exact hd i (by omega)

/-! ## The invariant -/

/-- The region invariant before position `n`. -/
def PhiS (c : Dev nD) : (n : ℕ) → n ≤ cfg0.N → sProp 𝕄
  | 0, _ => Pipeline.ΦA spec0 c
  | n + 1, _ => iprop(iprop(owns (c : Thread nD τ) sc0 fullShare (Y1 m c) ∗ (∃ d, ⌜Filled m c (n + 1) d⌝ ∗ owns (c : Thread nD τ) sc1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) sc0 fullShare (Y1 m c) ∗ (∃ d, ⌜Filled m c (n + 1) d⌝ ∗ owns (c : Thread nD τ) sc1 fullShare d)) ∗ (∃ r, prngReg c r)) := rfl

theorem PhiS_pos (c : Dev nD) (n : ℕ) (h : n ≤ cfg0.N) (hz : n ≠ 0) :
    PhiS m c n h = iprop(iprop(owns (c : Thread nD τ) sc0 fullShare (Y1 m c) ∗ (∃ d, ⌜Filled m c n d⌝ ∗ owns (c : Thread nD τ) sc1 fullShare d)) ∗ (∃ r, prngReg c r)) := by
  cases n with
  | zero => exact absurd rfl hz
  | succ n => rfl

/-! ## The proof data -/

/-- The arrays as the region finds them; after the body at point `t` each input's buffer at its block, the outputs'
    at that point's blocks of the two results; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => embBlk m c t
    | ⟨11, _⟩ => zBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = embBlk m c t := by dsimp only [dats]
theorem after11 (c : Dev nD) (t : Fin cfg0.N) : (dats m 0 c).after 11 t = zBlk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

end Cert.KernelIdeal.Hand

end
-- ==== Proof.KI.Body.lean ====
/-
  The body obligation: at every grid point the kernel body, started from the invariant and the staged blocks, ends
  in the invariant of the next point with every staging buffer at what the proof data says.

  Point 0: the first scratch, found at anything, is left at y1; the second, found at anything, is left with row block 0
  at y2's rows. A later point of phase 0: the first scratch is y1 and stays; the second, holding y2 below row 400 t,
  is left holding it below row 400 (t + 1). In phase 0 the output buffers are untouched and handed back as found. A
  point of phase 1: all 25 row blocks are filled, so the second scratch is y2; both scratch buffers stay, and the
  output buffers are left at the point's blocks of the embedding and of the projected result.
-/
import proofs.«120598_g45758581572075_cont_8to1_c_881_8_alg».proof.Proof.KI.Pieces
import proofs.«120598_g45758581572075_cont_8to1_c_881_8_alg».proof.Proof.KI.Data
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Named Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 14400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  by_cases h1 : t.val < 25
  · -- phase 0: the output windows are idle and not written back
    have hi10 : cfg0.idle 10 (grid0.coords t) = true := by rw [idle10 t]; exact decide_eq_true h1
    have hi11 : cfg0.idle 11 (grid0.coords t) = true := by rw [idle11 t]; exact decide_eq_true h1
    have hf10 : (cfg0.win 10).flush t = false := by rw [flush10 t]; exact decide_eq_false (by omega)
    have hf11 : (cfg0.win 11).flush t = false := by rw [flush11 t]; exact decide_eq_false (by omega)
    rw [Dat.leavesExact_idle _ 10 t hi10 hf10, Dat.leavesExact_idle _ 11 t hi11 hf11]
    by_cases hz : t.val = 0
    · -- the first point
      have ht0 : t = t0 := Fin.ext hz
      have hY : k0_pay2 (iblk m c 0 t) (iblk m c 2 t) (iblk m c 3 t) = Y1 m c := by rw [ht0]; rfl
      rw [PhiS_castSucc m c t, PhiS_zero m c _ _ hz, PhiA_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA c (grid0.coords t) _ _ _ _ _ _ _ _ _ _ _ _ _ _ _ _ _ _ _ _ _ _ _ _ _ _ _ _ ((hcond0 t).mpr (by omega)) ((hcond1 t).mpr h1) (fun h => absurd ((hcond2 t).mp h) (by omega)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) ((dats m 0 c).before 11 t d11) e1).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexact HS1
      iintro ⟨H0, H1, H2, H3, H4, H5, H6, H7, H8, H9, H10, H11, ⟨%es0, HS0⟩, HS1⟩
      isplitl [HS0 HS1 Hg]
      · isplitl [HS0 HS1]
        · isplitl [HS0]
          · unfold owns; iexists _; isplitr
            swap; · iexact HS0
            ipureintro
            exact (runA_sc0 c _ _ _ _ _ _ _ _ _ _ _ _ _ _ _ _ _ _ _ _ _ _ _ _ _ _ _ _ _ _ _ _ _ _ _ _ _ _ _ _ _ _ _ _ _ es0).trans hY
          · iexists _; isplitr
            swap
            · unfold owns; iexists _; isplitr
              swap; · iexact HS1
              ipureintro; rfl
            ipureintro
            rw [runA_sc1]
            refine filled_step m c t h1 _ ?_ _ (off1_eq t h1) _ _ ?_
            · intro i hi; exact absurd hi (by omega)
            · exact congrArg (fun y => k0_pay3 (iblk m c 1 t) y (iblk m c 4 t) (iblk m c 5 t)) hY
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
    · -- a later point of phase 0
      rw [PhiS_castSucc m c t, PhiS_pos m c _ _ hz]
      iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB c (grid0.coords t) _ _ _ _ _ _ _ _ _ _ _ _ _ _ _ _ _ _ _ _ _ _ _ _ _ _ _ _ (fun h => absurd ((hcond0 t).mp h) (by omega)) ((hcond1 t).mpr h1) (fun h => absurd ((hcond2 t).mp h) (by omega)) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) ((dats m 0 c).before 11 t d11) (Y1 m c) ds1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            rw [runB_sc1]
            refine filled_step m c t h1 _ ?_ _ (off1_eq t h1) _ _ rfl
            rw [Memref.IsWhole.read_unread]; exact hds1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
  · -- phase 1: the output windows are live, and written back
    have hi10 : cfg0.idle 10 (grid0.coords t) = false := by rw [idle10 t]; exact decide_eq_false h1
    have hi11 : cfg0.idle 11 (grid0.coords t) = false := by rw [idle11 t]; exact decide_eq_false h1
    rw [show (dats m 0 c).leavesExact 10 t = owns (c : Thread nD τ) (ms10 t) fullShare ((dats m 0 c).after 10 t) from by
      unfold Dat.leavesExact; rw [hi10], after10]
    rw [show (dats m 0 c).leavesExact 11 t = owns (c : Thread nD τ) (ms11 t) fullShare ((dats m 0 c).after 11 t) from by
      unfold Dat.leavesExact; rw [hi11], after11]
    have hz : t.val ≠ 0 := by omega
    rw [PhiS_castSucc m c t, PhiS_pos m c _ _ hz]
    iintro ⟨⟨⟨HS0, ⟨%ds1, %hds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl : ds1 = Y2 m c := hds1.eq_Y2 m (by omega)
    iapply ((runC c (grid0.coords t) _ _ _ _ _ _ _ _ _ _ _ _ _ _ _ _ _ _ _ _ _ _ _ _ _ _ _ _ (fun h => absurd ((hcond0 t).mp h) (by omega)) (fun h => h1 ((hcond1 t).mp h)) ((hcond2 t).mpr (by omega)) (iblk m c 0 t) (iblk m c 1 t) (iblk m c 2 t) (iblk m c 3 t) (iblk m c 4 t) (iblk m c 5 t) (iblk m c 6 t) (iblk m c 7 t) (iblk m c 8 t) (iblk m c 9 t) (Y1 m c) (Y2 m c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, ⟨%f10, H10⟩, ⟨%f11, H11⟩, HS0, HS1⟩
    isplitl [HS0 HS1 Hg]
    · isplitl [HS0 HS1]
      · isplitl [HS0]
        · iexact HS0
        · iexists _; isplitr
          swap; · iexact HS1
          ipureintro
          exact fun i _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro
      exact runC_o10 c _ _ _ _ _ _ _ _ _ _ _ _ _ _ _ _ _ _ _ _ _ _ _ _ _ _ _ _ _ _ _ _ _ _ _ _ _ _ _ _ _ _ _ _ f10
    unfold owns; iexists _; isplitr
    swap; · iexact H11
    ipureintro
    exact runC_o11 c _ _ _ _ _ _ _ _ _ _ _ _ _ _ _ _ _ _ _ _ _ _ _ _ _ _ _ _ _ _ _ _ _ _ _ _ _ _ _ _ _ _ _ _ f11

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨⟨HS0, ⟨%ds1, -, HS1⟩⟩, Hg⟩
  isplitl [HS0 HS1]
  · isplitl [HS0]
    · iexists _; iexact HS0
    iexists _; iexact HS1
  iexact Hg

end Cert.KernelIdeal.Hand

end
-- ==== Proof.KI.Main.lean ====
/-
  The run: from any memory with zero counters every weakly fair execution of the program terminates, and ends with
  every array of the pipeline at what the proof data computes — an input at its launch contents, an output at its
  launch contents overwritten block by block by what the body left at each write-back — and every other buffer as the
  region found it. The frame claim is that run read at the ten argument arrays.
-/
import proofs.«120598_g45758581572075_cont_8to1_c_881_8_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Named

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs (terminates, no fault) and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.KI.Final.lean ====
/-
  The two output arrays after the run are the kernel's named whole arrays.

  Each output is a [10000, 64] array cut into 25 row blocks of 400 rows. Its window is written back exactly at the 25
  points of phase 1, point 25 + n writing row block n, and what is written there is the block the body computed at
  that point. The named whole array takes row r from the block computed at point 25 + r / 400, at position r % 400
  inside it. So block n of the named array, read at position y, is the body's block of point 25 + n at y: what point
  25 + n writes back is its block of the named array. The 25 row blocks tile the 10000 rows, so every entry is
  covered by a point that writes back, and the array ends holding the named array.
-/
import proofs.«120598_g45758581572075_cont_8to1_c_881_8_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Named

variable {F : FTy → Type} [FloatOps F]
variable (m : (ℓ : Loc nD τ sig) → Buf (Elt F) ℓ)

/-! ## Output window 10 -/

/-- An index of the array lies in the block of point `t` exactly when each coordinate lies in the block's range on
    its axis: rows [400 · index, 400 · index + 400), columns [64 · index, 64 · index + 64). -/
theorem mem_blk10 (t : Fin cfg0.N) (i : S10000x64.Idx) :
    i ∈ ((cfg0.win 10).blk t).view.set ↔ ∀ a : Fin 2, win0_10.index t a * S400x64.size a ≤ (i a).val
      ∧ (i a).val < win0_10.index t a * S400x64.size a + S400x64.size a := by
  show i ∈ ((View.whole main_v0_1).slice (win0_10.rect t)).set ↔ _
  rw [View.set_slice_whole, Rect.mem_set_unit]
  exact Iff.rfl

/-- Position `y` of the block of a phase-1 point `t` is row 400 (t - 25) + y₀ of the array, and the phase-1 point that
    computes that row is `t` itself: (400 (t - 25) + y₀) / 400 = t - 25 because y₀ < 400. -/
theorem p1_emb10 (t : Fin cfg0.N) (ht : 25 ≤ t.val) (y : S400x64.Idx) :
    p1 (((cfg0.win 10).blk t).view.emb y) = t := by
  obtain ⟨e0, _⟩ := index10 t ht
  apply Fin.ext
  rw [p1_val]
  show 25 + (win0_10.index t (0 : Fin 2) * 400 + 1 * (y 0).val) / 400 = t.val
  have hy : (y 0).val < 400 := (y 0).isLt
  omega

/-- … and its position inside its row block is `y`: the row's remainder modulo 400 is y₀, and the column block is the
    only one, so the column is y₁. -/
theorem inBlk_emb10 (t : Fin cfg0.N) (ht : 25 ≤ t.val) (y : S400x64.Idx) :
    inBlk (((cfg0.win 10).blk t).view.emb y) = y := by
  obtain ⟨e0, e1⟩ := index10 t ht
  funext a
  apply Fin.ext
  match a with
  | ⟨0, _⟩ =>
    show (win0_10.index t (0 : Fin 2) * 400 + 1 * (y 0).val) % 400 = (y 0).val
    have hy : (y 0).val < 400 := (y 0).isLt
    omega
  | ⟨1, _⟩ =>
    show win0_10.index t (1 : Fin 2) * 64 + 1 * (y 1).val = (y 1).val
    omega

/-- What a phase-1 point writes back is its block of the whole array: the block the body computed at that point, read
    at a position, is the whole array at the row and column that position has in the array. -/
theorem flushed10_eq (c : Dev nD) (t : Fin cfg0.N) (hf : (cfg0.win 10).flush t = true) :
    (dats m 0 c).flushed 10 t = ((cfg0.win 10).blk t).view.read (Elt F) (EmbK m c) := by
  have ht : 25 ≤ t.val := by
    rw [flush10] at hf
    exact of_decide_eq_true hf
  show (cfg0.win 10).cut (grid0.coords t) ((dats m 0 c).after 10 t) = _
  rw [after10]
  funext y
  show embBlk m c t y = EmbK m c (((cfg0.win 10).blk t).view.emb y)
  unfold EmbK
  rw [p1_emb10 t ht y, inBlk_emb10 t ht y]

/-- Every entry of the array is in the block of a point that writes back: row r is in row block r / 400, written back
    at point 25 + r / 400 of phase 1. -/
theorem cover10 (i : S10000x64.Idx) :
    ∃ t : Fin cfg0.N, (cfg0.win 10).flush t = true ∧ i ∈ ((cfg0.win 10).blk t).view.set := by
  have hp : 25 ≤ (p1 i).val := by rw [p1_val]; omega
  refine ⟨p1 i, ?_, ?_⟩
  · rw [flush10]
    exact decide_eq_true hp
  · rw [mem_blk10]
    obtain ⟨e0, e1⟩ := index10 (p1 i) hp
    rw [p1_val] at e0
    intro a
    match a with
    | ⟨0, _⟩ =>
      show win0_10.index (p1 i) (0 : Fin 2) * 400 ≤ (i 0).val
        ∧ (i 0).val < win0_10.index (p1 i) (0 : Fin 2) * 400 + 400
      omega
    | ⟨1, _⟩ =>
      show win0_10.index (p1 i) (1 : Fin 2) * 64 ≤ (i 1).val
        ∧ (i 1).val < win0_10.index (p1 i) (1 : Fin 2) * 64 + 64
      have h1 : (i 1).val < 64 := idx2_lt1 i
      omega

/-- The embedding output's array after the run is the named embedding array. -/
theorem final10 (c : Dev nD) : (dats m 0 c).arrAt 10 cfg0.N = EmbK m c :=
  (dats m 0 c).arrAt_eq_of_cover 10 (EmbK m c) (fun t hf => flushed10_eq m c t hf) (fun i => cover10 i)

/-! ## Output window 11 -/

/-- An index of the array lies in the block of point `t` exactly when each coordinate lies in the block's range on
    its axis: rows [400 · index, 400 · index + 400), columns [64 · index, 64 · index + 64). -/
theorem mem_blk11 (t : Fin cfg0.N) (i : S10000x64.Idx) :
    i ∈ ((cfg0.win 11).blk t).view.set ↔ ∀ a : Fin 2, win0_11.index t a * S400x64.size a ≤ (i a).val
      ∧ (i a).val < win0_11.index t a * S400x64.size a + S400x64.size a := by
  show i ∈ ((View.whole main_v0_0).slice (win0_11.rect t)).set ↔ _
  rw [View.set_slice_whole, Rect.mem_set_unit]
  exact Iff.rfl

/-- Position `y` of the block of a phase-1 point `t` is row 400 (t - 25) + y₀ of the array, and the phase-1 point that
    computes that row is `t` itself: (400 (t - 25) + y₀) / 400 = t - 25 because y₀ < 400. -/
theorem p1_emb11 (t : Fin cfg0.N) (ht : 25 ≤ t.val) (y : S400x64.Idx) :
    p1 (((cfg0.win 11).blk t).view.emb y) = t := by
  obtain ⟨e0, _⟩ := index11 t ht
  apply Fin.ext
  rw [p1_val]
  show 25 + (win0_11.index t (0 : Fin 2) * 400 + 1 * (y 0).val) / 400 = t.val
  have hy : (y 0).val < 400 := (y 0).isLt
  omega

/-- … and its position inside its row block is `y`: the row's remainder modulo 400 is y₀, and the column block is the
    only one, so the column is y₁. -/
theorem inBlk_emb11 (t : Fin cfg0.N) (ht : 25 ≤ t.val) (y : S400x64.Idx) :
    inBlk (((cfg0.win 11).blk t).view.emb y) = y := by
  obtain ⟨e0, e1⟩ := index11 t ht
  funext a
  apply Fin.ext
  match a with
  | ⟨0, _⟩ =>
    show (win0_11.index t (0 : Fin 2) * 400 + 1 * (y 0).val) % 400 = (y 0).val
    have hy : (y 0).val < 400 := (y 0).isLt
    omega
  | ⟨1, _⟩ =>
    show win0_11.index t (1 : Fin 2) * 64 + 1 * (y 1).val = (y 1).val
    omega

/-- What a phase-1 point writes back is its block of the whole array: the block the body computed at that point, read
    at a position, is the whole array at the row and column that position has in the array. -/
theorem flushed11_eq (c : Dev nD) (t : Fin cfg0.N) (hf : (cfg0.win 11).flush t = true) :
    (dats m 0 c).flushed 11 t = ((cfg0.win 11).blk t).view.read (Elt F) (ZK m c) := by
  have ht : 25 ≤ t.val := by
    rw [flush11] at hf
    exact of_decide_eq_true hf
  show (cfg0.win 11).cut (grid0.coords t) ((dats m 0 c).after 11 t) = _
  rw [after11]
  funext y
  show zBlk m c t y = ZK m c (((cfg0.win 11).blk t).view.emb y)
  unfold ZK
  rw [p1_emb11 t ht y, inBlk_emb11 t ht y]

/-- Every entry of the array is in the block of a point that writes back: row r is in row block r / 400, written back
    at point 25 + r / 400 of phase 1. -/
theorem cover11 (i : S10000x64.Idx) :
    ∃ t : Fin cfg0.N, (cfg0.win 11).flush t = true ∧ i ∈ ((cfg0.win 11).blk t).view.set := by
  have hp : 25 ≤ (p1 i).val := by rw [p1_val]; omega
  refine ⟨p1 i, ?_, ?_⟩
  · rw [flush11]
    exact decide_eq_true hp
  · rw [mem_blk11]
    obtain ⟨e0, e1⟩ := index11 (p1 i) hp
    rw [p1_val] at e0
    intro a
    match a with
    | ⟨0, _⟩ =>
      show win0_11.index (p1 i) (0 : Fin 2) * 400 ≤ (i 0).val
        ∧ (i 0).val < win0_11.index (p1 i) (0 : Fin 2) * 400 + 400
      omega
    | ⟨1, _⟩ =>
      show win0_11.index (p1 i) (1 : Fin 2) * 64 ≤ (i 1).val
        ∧ (i 1).val < win0_11.index (p1 i) (1 : Fin 2) * 64 + 64
      have h1 : (i 1).val < 64 := idx2_lt1 i
      omega

/-- The projected output's array after the run is the named projected array. -/
theorem final11 (c : Dev nD) : (dats m 0 c).arrAt 11 cfg0.N = ZK m c :=
  (dats m 0 c).arrAt_eq_of_cover 11 (ZK m c) (fun t hf => flushed11_eq m c t hf) (fun i => cover11 i)

end Cert.KernelIdeal.Hand

end
-- ==== Proof.KI.Value.lean ====
/-
  The program's two results: after the run the projected result's array is the kernel's named whole array ZK and
  the embedding's is EmbK, with the ten arguments unchanged.
-/
import proofs.«120598_g45758581572075_cont_8to1_c_881_8_alg».proof.Proof.KI.Main
import proofs.«120598_g45758581572075_cont_8to1_c_881_8_alg».proof.Proof.KI.Final
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Named

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, read at the two result arrays (the output windows' arrays, at what the write-backs leave: the final
    arrays of the proof data) and at the ten argument arrays (a staged argument by the input windows' arrays, an
    argument a host operation reshapes before the region by the buffers no window stages). -/
theorem run_value : θ_run defs (onTc (τ := τ) (main (F := F))) ⟨m, fun _ => 0, ρ⟩ (fun r => ∀ c : Dev nD,
      r.2.mem ((c.tc : Thread nD τ).loc main_v0_0) = ZK m c
      ∧ r.2.mem ((c.tc : Thread nD τ).loc main_v0_1) = EmbK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 11).trans (final11 m c), ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c)⟩)
    (run_main m ρ)

end Cert.KernelIdeal.Hand

end
-- ==== Proof.Spec.lean ====
/-
  The mathematics both programs compute, as one function of the ten argument arrays, entry by entry on the
  extended reals: a two-layer dense graph convolution followed by a two-layer projection head.

    y1[k, j]  = (sum over a < 128 of x[k, a] * W1[a, j]) + b1[j]
    y2[r, j]  = (sum over a < 64 of max (sum over k < 10000 of Adj[r, k] * y1[k, a]) 0 * W2[a, j]) + b2[j]
    emb[r, j] = sum over k < 10000 of Adj[r, k] * y2[k, j]
    z[r, j]   = (sum over a < 64 of max ((sum over b < 64 of emb[r, b] * W3[b, a]) + b3[a]) 0 * W4[a, j]) + b4[j]

  Every sum is a finite sum in the commutative monoid of extended reals, so its order and grouping do not matter;
  no step uses distributivity or cancellation, and so nothing here needs the entries to be finite.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Mat (a b : Nat) : Type := (⟨2, ![a, b]⟩ : Shape).Idx → EReal
/-- A rank-1 array of extended reals. -/
abbrev Row (a : Nat) : Type := (⟨1, ![a]⟩ : Shape).Idx → EReal

/-- The first layer's affine map of the features: row `k` of `x` times `W1`, plus the bias. -/
def y1 (x : Mat 10000 128) (w1 : Mat 128 64) (b1 : Row 64) (k : Fin 10000) (j : Fin 64) : EReal :=
  (∑ a : Fin 128, x (ix2 k a) * w1 (ix2 a j)) + b1 (ix1 j)

/-- The second layer's affine map of the rectified first aggregation: row `r` of `relu (Adj · y1)` times `W2`,
    plus the bias. -/
def y2 (adj : Mat 10000 10000) (u : Fin 10000 → Fin 64 → EReal) (w2 : Mat 64 64) (b2 : Row 64)
    (r : Fin 10000) (j : Fin 64) : EReal :=
  (∑ a : Fin 64, max (∑ k : Fin 10000, adj (ix2 r k) * u k a) 0 * w2 (ix2 a j)) + b2 (ix1 j)

/-- The embedding: the second aggregation, row `r` of `Adj` times `y2`. -/
def emb (adj : Mat 10000 10000) (v : Fin 10000 → Fin 64 → EReal) (r : Fin 10000) (j : Fin 64) : EReal :=
  ∑ k : Fin 10000, adj (ix2 r k) * v k j

/-- The projection head on one row of the embedding: linear, rectify, linear. -/
def z (e : Fin 10000 → Fin 64 → EReal) (w3 : Mat 64 64) (b3 : Row 64) (w4 : Mat 64 64) (b4 : Row 64)
    (r : Fin 10000) (j : Fin 64) : EReal :=
  (∑ a : Fin 64, max ((∑ b : Fin 64, e r b * w3 (ix2 b a)) + b3 (ix1 a)) 0 * w4 (ix2 a j)) + b4 (ix1 j)

/-- The embedding as a function of the argument arrays, entry by entry. -/
def embOf (x : Mat 10000 128) (adj : Mat 10000 10000) (w1 : Mat 128 64) (b1 : Row 64) (w2 : Mat 64 64) (b2 : Row 64)
    (r : Fin 10000) (j : Fin 64) : EReal :=
  emb adj (y2 adj (y1 x w1 b1) w2 b2) r j

/-- The embedding array. -/
def embA (x : Mat 10000 128) (adj : Mat 10000 10000) (w1 : Mat 128 64) (b1 : Row 64) (w2 : Mat 64 64) (b2 : Row 64) :
    Mat 10000 64 :=
  fun i => embOf x adj w1 b1 w2 b2 (i 0) (i 1)

/-- The projected array. -/
def zA (x : Mat 10000 128) (adj : Mat 10000 10000) (w1 : Mat 128 64) (b1 : Row 64) (w2 : Mat 64 64) (b2 : Row 64)
    (w3 : Mat 64 64) (b3 : Row 64) (w4 : Mat 64 64) (b4 : Row 64) : Mat 10000 64 :=
  fun i => z (embOf x adj w1 b1 w2 b2) w3 b3 w4 b4 (i 0) (i 1)

end Cert.Spec

end
-- ==== Proof.PayIdeal.lean ====
/-
  The body's arithmetic read at one entry, at the exact values: each stored value of the kernel body, as a function
  of the vectors it loaded, is a finite sum of products (a matrix product into a zero accumulator), a bias row added,
  a maximum with zero, with the changes of float format the identity.
-/
import proofs.«120598_g45758581572075_cont_8to1_c_881_8_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.PayIdeal

open Idealize.ShloMosaic Idealize.ShloMosaic.ValueIdx
open Cert.KernelIdeal Cert.KernelIdeal.Gen

/-! ### The feature product: [10000,128] by [128,64] -/

/-- Row axis of the left operand: the output's row, whatever the contraction position. -/
private theorem mmX_lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl

/-- Column axis of the left operand: the one contracted axis, so the contraction position. -/
private theorem mmX_lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q

/-- Row axis of the right operand: the one contracted axis, so the contraction position. -/
private theorem mmX_rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q

/-- Column axis of the right operand: the output's column, whatever the contraction position. -/
private theorem mmX_rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- The product into a zero accumulator, at entry (r, c): the sum over the 128 contraction positions t of
    the left operand at (r, t) times the right operand at (t, c). -/
private theorem mmX_apply (l : FVec Ideal S10000x128 .f32) (r' : FVec Ideal S128x64 .f32) (r : Fin 10000) (c : Fin 64) :
    matmul (F := Ideal) (φ₁ := .f32) (φ₂ := .f32) dot_S10000x128_S128x64_S10000x64_1_0_0_1_n_n none l r'
        (constant (F := Ideal) S10000x64 .f32 0x00000000#32) (ix2 r c)
      = ∑ t : Fin 128, l (ix2 r t) * r' (ix2 t c) := by
  refine (Ideal.matmul_constant_zero_apply dot_S10000x128_S128x64_S10000x64_1_0_0_1_n_n none l r' (ix2 r c)).trans ?_
  rw [← Equiv.sum_comp (contrEquiv1 dot_S10000x128_S128x64_S10000x64_1_0_0_1_n_n 128 rfl rfl).symm]
  refine Finset.sum_congr rfl fun t _ => ?_
  have ht := contrEquiv1_symm_val dot_S10000x128_S128x64_S10000x64_1_0_0_1_n_n 128 rfl rfl t
  have el : dot_S10000x128_S128x64_S10000x64_1_0_0_1_n_n.lhsIdx (ix2 r c) ((contrEquiv1 dot_S10000x128_S128x64_S10000x64_1_0_0_1_n_n 128 rfl rfl).symm t) = ix2 r t :=
    funext fun a => Fin.ext (by
      match a with
      | ⟨0, _⟩ => exact mmX_lhs_0 _ _
      | ⟨1, _⟩ => exact (mmX_lhs_1 _ _).trans ht)
  have er : dot_S10000x128_S128x64_S10000x64_1_0_0_1_n_n.rhsIdx (ix2 r c) ((contrEquiv1 dot_S10000x128_S128x64_S10000x64_1_0_0_1_n_n 128 rfl rfl).symm t) = ix2 t c :=
    funext fun a => Fin.ext (by
      match a with
      | ⟨0, _⟩ => exact (mmX_rhs_0 _ _).trans ht
      | ⟨1, _⟩ => exact mmX_rhs_1 _ _)
  rw [el, er]

/-! ### The aggregation product: a [400,10000] adjacency block by a [10000,64] scratch -/

/-- Row axis of the left operand: the output's row, whatever the contraction position. -/
private theorem mmA_lhs_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide),
    dif_pos (show (0 : Fin S400x10000.rank) ∈ dot_S400x10000_S10000x64_S400x64_1_0_0_1_n_n.lhsNonContracting by decide)]
  rfl

/-- Column axis of the left operand: the one contracted axis, so the contraction position. -/
private theorem mmA_lhs_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q

/-- Row axis of the right operand: the one contracted axis, so the contraction position. -/
private theorem mmA_rhs_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q

/-- Column axis of the right operand: the output's column, whatever the contraction position. -/
private theorem mmA_rhs_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide),
    dif_pos (show (1 : Fin S10000x64.rank) ∈ dot_S400x10000_S10000x64_S400x64_1_0_0_1_n_n.rhsNonContracting by decide)]
  rfl

/-- The product into a zero accumulator, at entry (r, c): the sum over the 10000 contraction positions t of
    the left operand at (r, t) times the right operand at (t, c). -/
private theorem mmA_apply (l : FVec Ideal S400x10000 .bf16) (r' : FVec Ideal S10000x64 .bf16) (r : Fin 400) (c : Fin 64) :
    matmul (F := Ideal) (φ₁ := .bf16) (φ₂ := .bf16) dot_S400x10000_S10000x64_S400x64_1_0_0_1_n_n none l r'
        (constant (F := Ideal) S400x64 .f32 0x00000000#32) (ix2 r c)
      = ∑ t : Fin 10000, l (ix2 r t) * r' (ix2 t c) := by
  refine (Ideal.matmul_constant_zero_apply dot_S400x10000_S10000x64_S400x64_1_0_0_1_n_n none l r' (ix2 r c)).trans ?_
  rw [← Equiv.sum_comp (contrEquiv1 dot_S400x10000_S10000x64_S400x64_1_0_0_1_n_n 10000 rfl rfl).symm]
  refine Finset.sum_congr rfl fun t _ => ?_
  have ht := contrEquiv1_symm_val dot_S400x10000_S10000x64_S400x64_1_0_0_1_n_n 10000 rfl rfl t
  have el : dot_S400x10000_S10000x64_S400x64_1_0_0_1_n_n.lhsIdx (ix2 r c) ((contrEquiv1 dot_S400x10000_S10000x64_S400x64_1_0_0_1_n_n 10000 rfl rfl).symm t) = ix2 r t :=
    funext fun a => Fin.ext (by
      match a with
      | ⟨0, _⟩ => exact mmA_lhs_0 _ _
      | ⟨1, _⟩ => exact (mmA_lhs_1 _ _).trans ht)
  have er : dot_S400x10000_S10000x64_S400x64_1_0_0_1_n_n.rhsIdx (ix2 r c) ((contrEquiv1 dot_S400x10000_S10000x64_S400x64_1_0_0_1_n_n 10000 rfl rfl).symm t) = ix2 t c :=
    funext fun a => Fin.ext (by
      match a with
      | ⟨0, _⟩ => exact (mmA_rhs_0 _ _).trans ht
      | ⟨1, _⟩ => exact mmA_rhs_1 _ _)
  rw [el, er]

/-! ### The weight product: a [400,64] block by a [64,64] weight -/

/-- Row axis of the left operand: the output's row, whatever the contraction position. -/
private theorem mmW_lhs_0 (i : S400x64.Idx) (q : dot_S400x64_S64x64_S400x64_1_0_0_1_n_n.contr.Idx) :
    (dot_S400x64_S64x64_S400x64_1_0_0_1_n_n.lhsIdx i q 0).val = (i 0).val := by
  unfold DotDims.lhsIdx
  rw [dif_neg (show ¬(0 : Fin S400x64.rank) ∈ dot_S400x64_S64x64_S400x64_1_0_0_1_n_n.lhsBatch by decide),
    dif_pos (show (0 : Fin S400x64.rank) ∈ dot_S400x64_S64x64_S400x64_1_0_0_1_n_n.lhsNonContracting by decide)]
  rfl

/-- Column axis of the left operand: the one contracted axis, so the contraction position. -/
private theorem mmW_lhs_1 (i : S400x64.Idx) (q : dot_S400x64_S64x64_S400x64_1_0_0_1_n_n.contr.Idx) :
    (dot_S400x64_S64x64_S400x64_1_0_0_1_n_n.lhsIdx i q 1).val = (q ⟨0, by decide⟩).val :=
  dot_S400x64_S64x64_S400x64_1_0_0_1_n_n.lhsIdx_val_of_single rfl i q

/-- Row axis of the right operand: the one contracted axis, so the contraction position. -/
private theorem mmW_rhs_0 (i : S400x64.Idx) (q : dot_S400x64_S64x64_S400x64_1_0_0_1_n_n.contr.Idx) :
    (dot_S400x64_S64x64_S400x64_1_0_0_1_n_n.rhsIdx i q 0).val = (q ⟨0, by decide⟩).val :=
  dot_S400x64_S64x64_S400x64_1_0_0_1_n_n.rhsIdx_val_of_single rfl i q

/-- Column axis of the right operand: the output's column, whatever the contraction position. -/
private theorem mmW_rhs_1 (i : S400x64.Idx) (q : dot_S400x64_S64x64_S400x64_1_0_0_1_n_n.contr.Idx) :
    (dot_S400x64_S64x64_S400x64_1_0_0_1_n_n.rhsIdx i q 1).val = (i 1).val := by
  unfold DotDims.rhsIdx
  rw [dif_neg (show ¬(1 : Fin S64x64.rank) ∈ dot_S400x64_S64x64_S400x64_1_0_0_1_n_n.rhsBatch by decide),
    dif_pos (show (1 : Fin S64x64.rank) ∈ dot_S400x64_S64x64_S400x64_1_0_0_1_n_n.rhsNonContracting by decide)]
  rfl

/-- The product into a zero accumulator, at entry (r, c): the sum over the 64 contraction positions t of
    the left operand at (r, t) times the right operand at (t, c). -/
private theorem mmW_apply (l : FVec Ideal S400x64 .f32) (r' : FVec Ideal S64x64 .f32) (r : Fin 400) (c : Fin 64) :
    matmul (F := Ideal) (φ₁ := .f32) (φ₂ := .f32) dot_S400x64_S64x64_S400x64_1_0_0_1_n_n none l r'
        (constant (F := Ideal) S400x64 .f32 0x00000000#32) (ix2 r c)
      = ∑ t : Fin 64, l (ix2 r t) * r' (ix2 t c) := by
  refine (Ideal.matmul_constant_zero_apply dot_S400x64_S64x64_S400x64_1_0_0_1_n_n none l r' (ix2 r c)).trans ?_
  rw [← Equiv.sum_comp (contrEquiv1 dot_S400x64_S64x64_S400x64_1_0_0_1_n_n 64 rfl rfl).symm]
  refine Finset.sum_congr rfl fun t _ => ?_
  have ht := contrEquiv1_symm_val dot_S400x64_S64x64_S400x64_1_0_0_1_n_n 64 rfl rfl t
  have el : dot_S400x64_S64x64_S400x64_1_0_0_1_n_n.lhsIdx (ix2 r c) ((contrEquiv1 dot_S400x64_S64x64_S400x64_1_0_0_1_n_n 64 rfl rfl).symm t) = ix2 r t :=
    funext fun a => Fin.ext (by
      match a with
      | ⟨0, _⟩ => exact mmW_lhs_0 _ _
      | ⟨1, _⟩ => exact (mmW_lhs_1 _ _).trans ht)
  have er : dot_S400x64_S64x64_S400x64_1_0_0_1_n_n.rhsIdx (ix2 r c) ((contrEquiv1 dot_S400x64_S64x64_S400x64_1_0_0_1_n_n 64 rfl rfl).symm t) = ix2 t c :=
    funext fun a => Fin.ext (by
      match a with
      | ⟨0, _⟩ => exact (mmW_rhs_0 _ _).trans ht
      | ⟨1, _⟩ => exact mmW_rhs_1 _ _)
  rw [el, er]

/-- The scalar zero literal denotes zero. -/
private theorem zero_lit : Scalar.ofBits (F := Ideal) .f32 0x00000000#32 = 0 := Ideal.ofBits_zero_f32

/-- The first layer's affine map, as the body computes it from the feature array, W1 and the bias row. -/
theorem pay2_apply (x : Vec Ideal S10000x128 .f32) (w : Vec Ideal S128x64 .f32) (b : Vec Ideal S1x64 .f32)
    (k : Fin 10000) (j : Fin 64) :
    k0_pay2 (F := Ideal) x w b (ix2 k j) = (∑ a : Fin 128, x (ix2 k a) * w (ix2 a j)) + b (ix2 0 j) := by
  -- same-shape casts are the identity, the change of format is the identity, the sum is entrywise; what is left
  -- is the feature product at (k, j) plus the bias row, broadcast over the rows, at column j
  unfold k0_pay2
  rw [shapeCast_self, truncf_apply, addf_apply, mmX_apply, broadcastTo_1b_ab_apply, shapeCast_self]

/-- One row block of the second layer's affine map of the rectified aggregation. -/
theorem pay3_apply (A : Vec Ideal S400x10000 .f32) (u : Vec Ideal S10000x64 .bf16) (w : Vec Ideal S64x64 .f32)
    (b : Vec Ideal S1x64 .f32) (r : Fin 400) (j : Fin 64) :
    k0_pay3 (F := Ideal) A u w b (ix2 r j)
      = (∑ a : Fin 64, max (∑ k : Fin 10000, A (ix2 r k) * u (ix2 k a)) 0 * w (ix2 a j)) + b (ix2 0 j) := by
  -- outermost: a same-shape cast and a change of format (both the identity) of the weight product plus the bias row
  unfold k0_pay3 k0_pay1
  rw [shapeCast_self, truncf_apply, addf_apply, mmW_apply, broadcastTo_1b_ab_apply, shapeCast_self]
  refine congrArg (· + b (ix2 0 j)) (Finset.sum_congr rfl fun a _ => ?_)
  -- the left factor at (r, a): the maximum of the aggregation product at (r, a) and the broadcast zero
  rw [maximumf_apply, broadcast_apply, zero_lit, mmA_apply]
  rfl

/-- One row block of the embedding: the adjacency block times the second scratch. -/
theorem pay4_apply (A : Vec Ideal S400x10000 .f32) (v : Vec Ideal S10000x64 .bf16) (r : Fin 400) (j : Fin 64) :
    k0_pay4 (F := Ideal) A v (ix2 r j) = ∑ k : Fin 10000, A (ix2 r k) * v (ix2 k j) := by
  -- the block is the aggregation product of the adjacency block, read in the narrower format, with the scratch;
  -- the change of format is the identity on the exact values
  unfold k0_pay4 k0_pay1
  dsimp only
  rw [mmA_apply]
  rfl

/-- One row block of the projection head applied to the embedding block. -/
theorem pay5_apply (A : Vec Ideal S400x10000 .f32) (v : Vec Ideal S10000x64 .bf16) (w3 : Vec Ideal S64x64 .f32)
    (b3 : Vec Ideal S1x64 .f32) (w4 : Vec Ideal S64x64 .f32) (b4 : Vec Ideal S1x64 .f32) (r : Fin 400) (j : Fin 64) :
    k0_pay5 (F := Ideal) A v w3 b3 w4 b4 (ix2 r j)
      = (∑ a : Fin 64, max ((∑ b : Fin 64, (∑ k : Fin 10000, A (ix2 r k) * v (ix2 k b)) * w3 (ix2 b a)) + b3 (ix2 0 a)) 0
            * w4 (ix2 a j)) + b4 (ix2 0 j) := by
  -- outermost: the second weight product plus the second bias row
  unfold k0_pay5 k0_pay4 k0_pay1
  dsimp only
  rw [addf_apply, mmW_apply, broadcastTo_1b_ab_apply, shapeCast_self b4]
  refine congrArg (· + b4 (ix2 0 j)) (Finset.sum_congr rfl fun a _ => ?_)
  -- its left factor at (r, a): the maximum with zero of the first weight product plus the first bias row
  rw [maximumf_apply, broadcast_apply, zero_lit, addf_apply, mmW_apply, broadcastTo_1b_ab_apply, shapeCast_self b3]
  refine congrArg (fun s => max (s + b3 (ix2 0 a)) 0 * w4 (ix2 a j)) (Finset.sum_congr rfl fun c _ => ?_)
  -- that product's left factor at (r, c): the aggregation product of the embedding block
  rw [mmA_apply]
  rfl

end Cert.KernelIdeal.PayIdeal

end
-- ==== Proof.KI.Blocks.lean ====
/-
  What the pipeline stages at a grid point, read entry by entry as entries of the argument arrays.

  The grid has 50 points; point t works on row block t mod 25 of the adjacency matrix (400 rows each), so the staged
  adjacency block's entry (r, k) is the matrix's entry (400 (t mod 25) + r, k). The feature array and the four weight
  matrices are staged whole at every point. Each bias has 64 entries and is laid out as a 1 × 64 row before the
  region is entered (same entries, same order), and that row is staged whole: its entry (0, j) is the bias's entry j.

  In every case a block's coordinate in its array is (block index) × (block extent) + (coordinate inside the block),
  and the block index as a function of the grid point is decided once over the 50 points.
-/
import proofs.«120598_g45758581572075_cont_8to1_c_881_8_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Bridge

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-! ## The adjacency matrix: one block of 400 rows per point -/

theorem idx1 : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)

/-- The adjacency block at point t holds rows 400 (t mod 25) … 400 (t mod 25) + 399 of the matrix. -/
theorem adj_read (c : Dev nD) (t : Fin cfg0.N) (r : Fin 400) (k : Fin 10000) :
    (iblk m c 1 t (ix2 r k) : Elt F .f32)
      = m ((c.tc : Thread nD τ).loc main_arg1) (ix2 ⟨400 * (t.val % 25) + r.val, by have := r.isLt; omega⟩ k) := by
  unfold iblk
  rw [View.read_apply]
  show V m c main_arg1 _ = m (c.tc.loc main_arg1) _
  rw [V_main_arg1]
  congr 1
  funext d
  apply Fin.ext
  match d with
  | ⟨0, _⟩ => show win0_1.index t 0 * 400 + 1 * r.val = 400 * (t.val % 25) + r.val; rw [(idx1 t).1]; omega
  | ⟨1, _⟩ => show win0_1.index t 1 * 10000 + 1 * k.val = k.val; rw [(idx1 t).2]; omega

/-! ## The arrays staged whole -/

theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- The feature array is staged whole at every point: its block's entry (a, b) is the array's entry (a, b). -/
theorem x_read (c : Dev nD) (t : Fin cfg0.N) (a : Fin 10000) (b : Fin 128) :
    (iblk m c 0 t (ix2 a b) : Elt F .f32) = m ((c.tc : Thread nD τ).loc main_arg0) (ix2 a b) := by
  unfold iblk
  rw [View.read_apply]
  show V m c main_arg0 _ = m (c.tc.loc main_arg0) _
  rw [V_main_arg0]
  congr 1
  funext d
  apply Fin.ext
  match d with
  | ⟨0, _⟩ => show win0_0.index t 0 * 10000 + 1 * a.val = a.val; rw [(idx0 t).1]; omega
  | ⟨1, _⟩ => show win0_0.index t 1 * 128 + 1 * b.val = b.val; rw [(idx0 t).2]; omega

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The first weight matrix is staged whole at every point: its block's entry (a, b) is the array's entry (a, b). -/
theorem w1_read (c : Dev nD) (t : Fin cfg0.N) (a : Fin 128) (b : Fin 64) :
    (iblk m c 2 t (ix2 a b) : Elt F .f32) = m ((c.tc : Thread nD τ).loc main_arg2) (ix2 a b) := by
  unfold iblk
  rw [View.read_apply]
  show V m c main_arg2 _ = m (c.tc.loc main_arg2) _
  rw [V_main_arg2]
  congr 1
  funext d
  apply Fin.ext
  match d with
  | ⟨0, _⟩ => show win0_2.index t 0 * 128 + 1 * a.val = a.val; rw [(idx2 t).1]; omega
  | ⟨1, _⟩ => show win0_2.index t 1 * 64 + 1 * b.val = b.val; rw [(idx2 t).2]; omega

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The second weight matrix is staged whole at every point: its block's entry (a, b) is the array's entry (a, b). -/
theorem w2_read (c : Dev nD) (t : Fin cfg0.N) (a : Fin 64) (b : Fin 64) :
    (iblk m c 4 t (ix2 a b) : Elt F .f32) = m ((c.tc : Thread nD τ).loc main_arg4) (ix2 a b) := by
  unfold iblk
  rw [View.read_apply]
  show V m c main_arg4 _ = m (c.tc.loc main_arg4) _
  rw [V_main_arg4]
  congr 1
  funext d
  apply Fin.ext
  match d with
  | ⟨0, _⟩ => show win0_4.index t 0 * 64 + 1 * a.val = a.val; rw [(idx4 t).1]; omega
  | ⟨1, _⟩ => show win0_4.index t 1 * 64 + 1 * b.val = b.val; rw [(idx4 t).2]; omega

theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- The third weight matrix is staged whole at every point: its block's entry (a, b) is the array's entry (a, b). -/
theorem w3_read (c : Dev nD) (t : Fin cfg0.N) (a : Fin 64) (b : Fin 64) :
    (iblk m c 6 t (ix2 a b) : Elt F .f32) = m ((c.tc : Thread nD τ).loc main_arg6) (ix2 a b) := by
  unfold iblk
  rw [View.read_apply]
  show V m c main_arg6 _ = m (c.tc.loc main_arg6) _
  rw [V_main_arg6]
  congr 1
  funext d
  apply Fin.ext
  match d with
  | ⟨0, _⟩ => show win0_6.index t 0 * 64 + 1 * a.val = a.val; rw [(idx6 t).1]; omega
  | ⟨1, _⟩ => show win0_6.index t 1 * 64 + 1 * b.val = b.val; rw [(idx6 t).2]; omega

theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- The fourth weight matrix is staged whole at every point: its block's entry (a, b) is the array's entry (a, b). -/
theorem w4_read (c : Dev nD) (t : Fin cfg0.N) (a : Fin 64) (b : Fin 64) :
    (iblk m c 8 t (ix2 a b) : Elt F .f32) = m ((c.tc : Thread nD τ).loc main_arg8) (ix2 a b) := by
  unfold iblk
  rw [View.read_apply]
  show V m c main_arg8 _ = m (c.tc.loc main_arg8) _
  rw [V_main_arg8]
  congr 1
  funext d
  apply Fin.ext
  match d with
  | ⟨0, _⟩ => show win0_8.index t 0 * 64 + 1 * a.val = a.val; rw [(idx8 t).1]; omega
  | ⟨1, _⟩ => show win0_8.index t 1 * 64 + 1 * b.val = b.val; rw [(idx8 t).2]; omega

/-! ## The biases, each as a row -/

/-- A vector of 64 entries laid out as a 1 × 64 row, read at (0, j), is the vector's entry j: both sit at row-major
    position j. -/
theorem row_read {α : Type} (x : S64.Idx → α) (j : Fin 64) :
    shapeCast S1x64 x shapeCasts_S64_S1x64 (ix2 0 j) = x (ix1 j) := by
  refine shapeCast_apply x _ _ _ ?_
  rw [Shape.rowMajor_val_one, Shape.rowMajor_val_two]
  show j.val = 0 * 64 + j.val
  omega

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Before the region the bias b1 is laid out as a single row: the same 64 entries in the same order. -/
theorem V_b1 (c : Dev nD) :
    (V m c main_call0_v0 : S1x64.Idx → Elt F .f32)
      = shapeCast S1x64 (m ((c.tc : Thread nD τ).loc main_arg3) : S64.Idx → Elt F .f32) shapeCasts_S64_S1x64 := by
  dsimp only [Gen.V, Gen.hostOps0]
  after_results
  rfl

/-- The staged row of b1: its entry (0, j) is the bias's entry j. -/
theorem b1_read (c : Dev nD) (t : Fin cfg0.N) (j : Fin 64) :
    (iblk m c 3 t (ix2 0 j) : Elt F .f32) = m ((c.tc : Thread nD τ).loc main_arg3) (ix1 j) := by
  unfold iblk
  rw [View.read_apply]
  show V m c main_call0_v0 _ = m (c.tc.loc main_arg3) _
  rw [V_b1]
  refine Eq.trans (congrArg (shapeCast S1x64 _ shapeCasts_S64_S1x64) ?_) (row_read _ j)
  funext d
  apply Fin.ext
  match d with
  | ⟨0, _⟩ => show win0_3.index t 0 * 1 + 1 * 0 = 0; rw [(idx3 t).1]
  | ⟨1, _⟩ => show win0_3.index t 1 * 64 + 1 * j.val = j.val; rw [(idx3 t).2]; omega

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Before the region the bias b2 is laid out as a single row: the same 64 entries in the same order. -/
theorem V_b2 (c : Dev nD) :
    (V m c main_call0_v1 : S1x64.Idx → Elt F .f32)
      = shapeCast S1x64 (m ((c.tc : Thread nD τ).loc main_arg5) : S64.Idx → Elt F .f32) shapeCasts_S64_S1x64 := by
  dsimp only [Gen.V, Gen.hostOps0]
  after_results
  rfl

/-- The staged row of b2: its entry (0, j) is the bias's entry j. -/
theorem b2_read (c : Dev nD) (t : Fin cfg0.N) (j : Fin 64) :
    (iblk m c 5 t (ix2 0 j) : Elt F .f32) = m ((c.tc : Thread nD τ).loc main_arg5) (ix1 j) := by
  unfold iblk
  rw [View.read_apply]
  show V m c main_call0_v1 _ = m (c.tc.loc main_arg5) _
  rw [V_b2]
  refine Eq.trans (congrArg (shapeCast S1x64 _ shapeCasts_S64_S1x64) ?_) (row_read _ j)
  funext d
  apply Fin.ext
  match d with
  | ⟨0, _⟩ => show win0_5.index t 0 * 1 + 1 * 0 = 0; rw [(idx5 t).1]
  | ⟨1, _⟩ => show win0_5.index t 1 * 64 + 1 * j.val = j.val; rw [(idx5 t).2]; omega

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Before the region the bias b3 is laid out as a single row: the same 64 entries in the same order. -/
theorem V_b3 (c : Dev nD) :
    (V m c main_call0_v2 : S1x64.Idx → Elt F .f32)
      = shapeCast S1x64 (m ((c.tc : Thread nD τ).loc main_arg7) : S64.Idx → Elt F .f32) shapeCasts_S64_S1x64 := by
  dsimp only [Gen.V, Gen.hostOps0]
  after_results
  rfl

/-- The staged row of b3: its entry (0, j) is the bias's entry j. -/
theorem b3_read (c : Dev nD) (t : Fin cfg0.N) (j : Fin 64) :
    (iblk m c 7 t (ix2 0 j) : Elt F .f32) = m ((c.tc : Thread nD τ).loc main_arg7) (ix1 j) := by
  unfold iblk
  rw [View.read_apply]
  show V m c main_call0_v2 _ = m (c.tc.loc main_arg7) _
  rw [V_b3]
  refine Eq.trans (congrArg (shapeCast S1x64 _ shapeCasts_S64_S1x64) ?_) (row_read _ j)
  funext d
  apply Fin.ext
  match d with
  | ⟨0, _⟩ => show win0_7.index t 0 * 1 + 1 * 0 = 0; rw [(idx7 t).1]
  | ⟨1, _⟩ => show win0_7.index t 1 * 64 + 1 * j.val = j.val; rw [(idx7 t).2]; omega

theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Before the region the bias b4 is laid out as a single row: the same 64 entries in the same order. -/
theorem V_b4 (c : Dev nD) :
    (V m c main_call0_v3 : S1x64.Idx → Elt F .f32)
      = shapeCast S1x64 (m ((c.tc : Thread nD τ).loc main_arg9) : S64.Idx → Elt F .f32) shapeCasts_S64_S1x64 := by
  dsimp only [Gen.V, Gen.hostOps0]
  after_results
  rfl

/-- The staged row of b4: its entry (0, j) is the bias's entry j. -/
theorem b4_read (c : Dev nD) (t : Fin cfg0.N) (j : Fin 64) :
    (iblk m c 9 t (ix2 0 j) : Elt F .f32) = m ((c.tc : Thread nD τ).loc main_arg9) (ix1 j) := by
  unfold iblk
  rw [View.read_apply]
  show V m c main_call0_v3 _ = m (c.tc.loc main_arg9) _
  rw [V_b4]
  refine Eq.trans (congrArg (shapeCast S1x64 _ shapeCasts_S64_S1x64) ?_) (row_read _ j)
  funext d
  apply Fin.ext
  match d with
  | ⟨0, _⟩ => show win0_9.index t 0 * 1 + 1 * 0 = 0; rw [(idx9 t).1]
  | ⟨1, _⟩ => show win0_9.index t 1 * 64 + 1 * j.val = j.val; rw [(idx9 t).2]; omega

end Cert.KernelIdeal.Bridge

end
-- ==== Proof.KI.Bridge.lean ====
/-
  The kernel's two outputs are the specification's two arrays.

  Every value the kernel names is a finite sum of products, a bias added, a maximum with zero, over the blocks the
  pipeline staged; every staged entry is an entry of an argument array. Row r of the adjacency matrix sits in block
  r / 400 at position r mod 400, and the two grid points that work on that block (r / 400 in phase 0 and 25 + r / 400
  in phase 1) both stage exactly that block. So, layer by layer and entry by entry, the first scratch is y1, the second
  scratch is y2, the embedding output is emb and the projected output is z, each as the same nested sums over the
  argument arrays that the specification writes; no algebraic law is used.
-/
import proofs.«120598_g45758581572075_cont_8to1_c_881_8_alg».proof.Proof.Spec
import proofs.«120598_g45758581572075_cont_8to1_c_881_8_alg».proof.Proof.PayIdeal
import proofs.«120598_g45758581572075_cont_8to1_c_881_8_alg».proof.Proof.KI.Named
import proofs.«120598_g45758581572075_cont_8to1_c_881_8_alg».proof.Proof.KI.Blocks

noncomputable section

open scoped BigOperators

namespace Cert.KernelIdeal.Bridge

open Idealize.ShloMosaic Idealize.ShloMosaic.TcCoe Idealize.ShloMosaic.ValueIdx Idealize.SL.Sem
open Cert.KernelIdeal Cert.KernelIdeal.Gen Cert.KernelIdeal.Named Cert.KernelIdeal.PayIdeal
open Cert.Spec (Mat Row)

variable (m : (ℓ : Loc nD τ sig) → Buf (Elt Ideal) ℓ)

/-! ## Each stored value from entries of the arrays

Each lemma takes the vectors the body loaded as variables, together with what their entries are in terms of the
argument arrays, and identifies the stored value's entry with the specification's. -/

/-- The first layer's affine map of row k of the features. -/
theorem y1_of_reads (x : Vec Ideal S10000x128 .f32) (w : Vec Ideal S128x64 .f32) (b : Vec Ideal S1x64 .f32)
    (X : Mat 10000 128) (W1 : Mat 128 64) (B1 : Row 64)
    (hx : ∀ k a, x (ix2 k a) = X (ix2 k a)) (hw : ∀ a j, w (ix2 a j) = W1 (ix2 a j))
    (hb : ∀ j, b (ix2 0 j) = B1 (ix1 j)) (k : Fin 10000) (j : Fin 64) :
    k0_pay2 (F := Ideal) x w b (ix2 k j) = Cert.Spec.y1 X W1 B1 k j := by
  rw [pay2_apply]
  unfold Cert.Spec.y1
  rw [hb]
  congr 1
  exact Finset.sum_congr rfl fun a _ => by rw [hx, hw]

/-- The second layer's affine map on row r, computed from the block whose row q is row r of the adjacency matrix. -/
theorem y2_of_reads (A : Vec Ideal S400x10000 .f32) (u : Vec Ideal S10000x64 .bf16) (w : Vec Ideal S64x64 .f32)
    (b : Vec Ideal S1x64 .f32) (Adj : Mat 10000 10000) (U : Fin 10000 → Fin 64 → EReal) (W2 : Mat 64 64) (B2 : Row 64)
    (r : Fin 10000) (q : Fin 400)
    (hA : ∀ k, A (ix2 q k) = Adj (ix2 r k)) (hu : ∀ k a, u (ix2 k a) = U k a)
    (hw : ∀ a j, w (ix2 a j) = W2 (ix2 a j)) (hb : ∀ j, b (ix2 0 j) = B2 (ix1 j)) (j : Fin 64) :
    k0_pay3 (F := Ideal) A u w b (ix2 q j) = Cert.Spec.y2 Adj U W2 B2 r j := by
  rw [pay3_apply]
  unfold Cert.Spec.y2
  rw [hb]
  congr 1
  refine Finset.sum_congr rfl fun a _ => ?_
  rw [hw]
  congr 2
  exact Finset.sum_congr rfl fun k _ => by rw [hA, hu]

/-- The second aggregation on row r. -/
theorem emb_of_reads (A : Vec Ideal S400x10000 .f32) (v : Vec Ideal S10000x64 .bf16)
    (Adj : Mat 10000 10000) (V : Fin 10000 → Fin 64 → EReal) (r : Fin 10000) (q : Fin 400)
    (hA : ∀ k, A (ix2 q k) = Adj (ix2 r k)) (hv : ∀ k a, v (ix2 k a) = V k a) (j : Fin 64) :
    k0_pay4 (F := Ideal) A v (ix2 q j) = Cert.Spec.emb Adj V r j := by
  rw [pay4_apply]
  unfold Cert.Spec.emb
  exact Finset.sum_congr rfl fun k _ => by rw [hA, hv]

/-- The projection head on row r of the second aggregation. -/
theorem z_of_reads (A : Vec Ideal S400x10000 .f32) (v : Vec Ideal S10000x64 .bf16) (w3 : Vec Ideal S64x64 .f32)
    (b3 : Vec Ideal S1x64 .f32) (w4 : Vec Ideal S64x64 .f32) (b4 : Vec Ideal S1x64 .f32)
    (Adj : Mat 10000 10000) (V : Fin 10000 → Fin 64 → EReal) (W3 : Mat 64 64) (B3 : Row 64) (W4 : Mat 64 64) (B4 : Row 64)
    (r : Fin 10000) (q : Fin 400)
    (hA : ∀ k, A (ix2 q k) = Adj (ix2 r k)) (hv : ∀ k a, v (ix2 k a) = V k a)
    (hw3 : ∀ a j, w3 (ix2 a j) = W3 (ix2 a j)) (hb3 : ∀ j, b3 (ix2 0 j) = B3 (ix1 j))
    (hw4 : ∀ a j, w4 (ix2 a j) = W4 (ix2 a j)) (hb4 : ∀ j, b4 (ix2 0 j) = B4 (ix1 j)) (j : Fin 64) :
    k0_pay5 (F := Ideal) A v w3 b3 w4 b4 (ix2 q j) = Cert.Spec.z (Cert.Spec.emb Adj V) W3 B3 W4 B4 r j := by
  rw [pay5_apply]
  unfold Cert.Spec.z Cert.Spec.emb
  rw [hb4]
  congr 1
  refine Finset.sum_congr rfl fun a _ => ?_
  rw [hw4, hb3]
  congr 3
  refine Finset.sum_congr rfl fun b _ => ?_
  rw [hw3]
  congr 1
  exact Finset.sum_congr rfl fun k _ => by rw [hA, hv]

/-! ## Row r of the adjacency matrix inside its block

Row r lies in block r / 400 at position r mod 400. The phase-0 point of that block is r / 400 and its phase-1 point
is 25 + r / 400; both work on block (their number) mod 25 = r / 400, and 400 (r / 400) + r mod 400 = r. -/

theorem adj_row_p0 (c : Dev nD) (r : Fin 10000) (j : Fin 64) (k : Fin 10000) :
    bAdj (F := Ideal) m c (p0 (ix2 r j)) (ix2 ⟨r.val % 400, Nat.mod_lt _ (by decide)⟩ k)
      = m ((c.tc : Thread nD τ).loc main_arg1) (ix2 r k) := by
  refine (adj_read m c (p0 (ix2 r j)) ⟨r.val % 400, Nat.mod_lt _ (by decide)⟩ k).trans ?_
  refine congrArg (fun s : Fin 10000 => m ((c.tc : Thread nD τ).loc main_arg1) (ix2 s k)) (Fin.ext ?_)
  show 400 * (r.val / 400 % 25) + r.val % 400 = r.val
  have := r.isLt
  omega

theorem adj_row_p1 (c : Dev nD) (r : Fin 10000) (j : Fin 64) (k : Fin 10000) :
    bAdj (F := Ideal) m c (p1 (ix2 r j)) (ix2 ⟨r.val % 400, Nat.mod_lt _ (by decide)⟩ k)
      = m ((c.tc : Thread nD τ).loc main_arg1) (ix2 r k) := by
  refine (adj_read m c (p1 (ix2 r j)) ⟨r.val % 400, Nat.mod_lt _ (by decide)⟩ k).trans ?_
  refine congrArg (fun s : Fin 10000 => m ((c.tc : Thread nD τ).loc main_arg1) (ix2 s k)) (Fin.ext ?_)
  show 400 * ((25 + r.val / 400) % 25) + r.val % 400 = r.val
  have := r.isLt
  omega

/-! ## The kernel's named values, entry by entry -/

/-- The first scratch holds the first layer's affine map of the features. -/
theorem Y1_apply (c : Dev nD) (k : Fin 10000) (j : Fin 64) :
    Y1 (F := Ideal) m c (ix2 k j)
      = Cert.Spec.y1 (m ((c.tc : Thread nD τ).loc main_arg0)) (m ((c.tc : Thread nD τ).loc main_arg2))
          (m ((c.tc : Thread nD τ).loc main_arg3)) k j :=
  y1_of_reads (bX m c t0) (bW1 m c t0) (bB1 m c t0) _ _ _ (x_read m c t0) (w1_read m c t0) (b1_read m c t0) k j

/-- The second scratch holds the second layer's affine map, every row computed at that row's phase-0 point. -/
theorem Y2_apply (c : Dev nD) (r : Fin 10000) (j : Fin 64) :
    Y2 (F := Ideal) m c (ix2 r j)
      = Cert.Spec.y2 (m ((c.tc : Thread nD τ).loc main_arg1))
          (Cert.Spec.y1 (m ((c.tc : Thread nD τ).loc main_arg0)) (m ((c.tc : Thread nD τ).loc main_arg2))
            (m ((c.tc : Thread nD τ).loc main_arg3)))
          (m ((c.tc : Thread nD τ).loc main_arg4)) (m ((c.tc : Thread nD τ).loc main_arg5)) r j :=
  y2_of_reads (bAdj m c (p0 (ix2 r j))) (Y1 m c) (bW2 m c (p0 (ix2 r j))) (bB2 m c (p0 (ix2 r j))) _ _ _ _ r
    ⟨r.val % 400, Nat.mod_lt _ (by decide)⟩ (adj_row_p0 m c r j) (Y1_apply m c) (w2_read m c _) (b2_read m c _) j

/-- The embedding output, every row computed at that row's phase-1 point. -/
theorem EmbK_apply (c : Dev nD) (r : Fin 10000) (j : Fin 64) :
    EmbK (F := Ideal) m c (ix2 r j)
      = Cert.Spec.embOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) r j :=
  emb_of_reads (bAdj m c (p1 (ix2 r j))) (Y2 m c) _ _ r ⟨r.val % 400, Nat.mod_lt _ (by decide)⟩
    (adj_row_p1 m c r j) (Y2_apply m c) j

/-- The projected output, every row computed at that row's phase-1 point. -/
theorem ZK_apply (c : Dev nD) (r : Fin 10000) (j : Fin 64) :
    ZK (F := Ideal) m c (ix2 r j)
      = Cert.Spec.z (Cert.Spec.embOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)))
          (m ((c.tc : Thread nD τ).loc main_arg6)) (m ((c.tc : Thread nD τ).loc main_arg7))
          (m ((c.tc : Thread nD τ).loc main_arg8)) (m ((c.tc : Thread nD τ).loc main_arg9)) r j :=
  z_of_reads (bAdj m c (p1 (ix2 r j))) (Y2 m c) (bW3 m c (p1 (ix2 r j))) (bB3 m c (p1 (ix2 r j)))
    (bW4 m c (p1 (ix2 r j))) (bB4 m c (p1 (ix2 r j))) _ _ _ _ _ _ r ⟨r.val % 400, Nat.mod_lt _ (by decide)⟩
    (adj_row_p1 m c r j) (Y2_apply m c) (w3_read m c _) (b3_read m c _) (w4_read m c _) (b4_read m c _) j

/-! ## The two outputs as whole arrays -/

/-- The kernel's embedding output is the specification's embedding of the ten argument arrays. -/
theorem embK_eq (c : Dev nD) :
    Named.EmbK (F := Ideal) m c
      = Cert.Spec.embA (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext i
  obtain ⟨r, j, rfl⟩ : ∃ (r : Fin 10000) (j : Fin 64), i = ix2 r j := ⟨i 0, i 1, eq_ix2 i⟩
  exact EmbK_apply m c r j

/-- The kernel's projected output is the specification's projection of the ten argument arrays. -/
theorem zK_eq (c : Dev nD) :
    Named.ZK (F := Ideal) m c
      = Cert.Spec.zA (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  funext i
  obtain ⟨r, j, rfl⟩ : ∃ (r : Fin 10000) (j : Fin 64), i = ix2 r j := ⟨i 0, i 1, eq_ix2 i⟩
  exact ZK_apply m c r j

end Cert.KernelIdeal.Bridge

end
-- ==== Proof.RefValue.lean ====
/-
  The reference program's two results, read at the exact values, are the specification's arrays of its arguments.

  The reference is a chain of four affine maps with two rectifications between them:
    y1 = x · W1 + b1,   u = max (Adj · y1) 0,   y2 = u · W2 + b2,   emb = Adj · y2,
    h = max (emb · W3 + b3) 0,   z = h · W4 + b4.
  Each product is a finite sum over the one contracted axis, each bias a row repeated down the 10000 rows, and the
  rectification a maximum against the constant zero array. Every stage is read at one entry (r, j) and identified with
  the specification's entry there; a stage uses the one before it only through that entry-wise equation, so no step
  compares two whole arrays.
-/
import proofs.«120598_g45758581572075_cont_8to1_c_881_8_alg».proof.Proof.Gen.ReferenceIdeal.Run
import proofs.«120598_g45758581572075_cont_8to1_c_881_8_alg».proof.Proof.Gen.ReferenceIdeal.Read
import proofs.«120598_g45758581572075_cont_8to1_c_881_8_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Where each stage reads its operands

A product's entry (r, j) reads row r of its left factor and column j of its right factor along the contracted index k;
a bias repeated down the rows reads its entry j. -/

theorem lidx_v0 (r : Fin 10000) (j : Fin 64) (k : Fin 128) :
    lidx_main_v0 (ix2 r j) k = ix2 r k :=
  funext fun a => Fin.ext (by match a with | ⟨0, _⟩ => rfl | ⟨1, _⟩ => rfl)
theorem ridx_v0 (r : Fin 10000) (j : Fin 64) (k : Fin 128) :
    ridx_main_v0 (ix2 r j) k = ix2 k j :=
  funext fun a => Fin.ext (by match a with | ⟨0, _⟩ => rfl | ⟨1, _⟩ => rfl)
theorem lidx_v4 (r : Fin 10000) (j : Fin 64) (k : Fin 10000) :
    lidx_main_v4 (ix2 r j) k = ix2 r k :=
  funext fun a => Fin.ext (by match a with | ⟨0, _⟩ => rfl | ⟨1, _⟩ => rfl)
theorem ridx_v4 (r : Fin 10000) (j : Fin 64) (k : Fin 10000) :
    ridx_main_v4 (ix2 r j) k = ix2 k j :=
  funext fun a => Fin.ext (by match a with | ⟨0, _⟩ => rfl | ⟨1, _⟩ => rfl)
theorem lidx_v6 (r : Fin 10000) (j : Fin 64) (k : Fin 64) :
    lidx_main_v6 (ix2 r j) k = ix2 r k :=
  funext fun a => Fin.ext (by match a with | ⟨0, _⟩ => rfl | ⟨1, _⟩ => rfl)
theorem ridx_v6 (r : Fin 10000) (j : Fin 64) (k : Fin 64) :
    ridx_main_v6 (ix2 r j) k = ix2 k j :=
  funext fun a => Fin.ext (by match a with | ⟨0, _⟩ => rfl | ⟨1, _⟩ => rfl)
theorem lidx_v10 (r : Fin 10000) (j : Fin 64) (k : Fin 10000) :
    lidx_main_v10 (ix2 r j) k = ix2 r k :=
  funext fun a => Fin.ext (by match a with | ⟨0, _⟩ => rfl | ⟨1, _⟩ => rfl)
theorem ridx_v10 (r : Fin 10000) (j : Fin 64) (k : Fin 10000) :
    ridx_main_v10 (ix2 r j) k = ix2 k j :=
  funext fun a => Fin.ext (by match a with | ⟨0, _⟩ => rfl | ⟨1, _⟩ => rfl)
theorem lidx_v11 (r : Fin 10000) (j : Fin 64) (k : Fin 64) :
    lidx_main_v11 (ix2 r j) k = ix2 r k :=
  funext fun a => Fin.ext (by match a with | ⟨0, _⟩ => rfl | ⟨1, _⟩ => rfl)
theorem ridx_v11 (r : Fin 10000) (j : Fin 64) (k : Fin 64) :
    ridx_main_v11 (ix2 r j) k = ix2 k j :=
  funext fun a => Fin.ext (by match a with | ⟨0, _⟩ => rfl | ⟨1, _⟩ => rfl)
theorem lidx_v16 (r : Fin 10000) (j : Fin 64) (k : Fin 64) :
    lidx_main_v16 (ix2 r j) k = ix2 r k :=
  funext fun a => Fin.ext (by match a with | ⟨0, _⟩ => rfl | ⟨1, _⟩ => rfl)
theorem ridx_v16 (r : Fin 10000) (j : Fin 64) (k : Fin 64) :
    ridx_main_v16 (ix2 r j) k = ix2 k j :=
  funext fun a => Fin.ext (by match a with | ⟨0, _⟩ => rfl | ⟨1, _⟩ => rfl)
theorem idx_b1 (r : Fin 10000) (j : Fin 64) :
    idx_main_v1 (idx_main_v2 (ix2 r j)) = ix1 j :=
  funext fun a => Fin.ext (by match a with | ⟨0, _⟩ => rfl)
theorem idx_b2 (r : Fin 10000) (j : Fin 64) :
    idx_main_v7 (idx_main_v8 (ix2 r j)) = ix1 j :=
  funext fun a => Fin.ext (by match a with | ⟨0, _⟩ => rfl)
theorem idx_b3 (r : Fin 10000) (j : Fin 64) :
    idx_main_v12 (idx_main_v13 (ix2 r j)) = ix1 j :=
  funext fun a => Fin.ext (by match a with | ⟨0, _⟩ => rfl)
theorem idx_b4 (r : Fin 10000) (j : Fin 64) :
    idx_main_v17 (idx_main_v18 (ix2 r j)) = ix1 j :=
  funext fun a => Fin.ext (by match a with | ⟨0, _⟩ => rfl)

/-! ## The stages, entry by entry -/

variable (x : (⟨S10000x128, .f32⟩ : BufTy).Contents (Elt Ideal)) (adj : (⟨S10000x10000, .f32⟩ : BufTy).Contents (Elt Ideal))
  (w1 : (⟨S128x64, .f32⟩ : BufTy).Contents (Elt Ideal)) (b1 : (⟨S64, .f32⟩ : BufTy).Contents (Elt Ideal))
  (w2 : (⟨S64x64, .f32⟩ : BufTy).Contents (Elt Ideal)) (b2 : (⟨S64, .f32⟩ : BufTy).Contents (Elt Ideal))
  (w3 : (⟨S64x64, .f32⟩ : BufTy).Contents (Elt Ideal)) (b3 : (⟨S64, .f32⟩ : BufTy).Contents (Elt Ideal))
  (w4 : (⟨S64x64, .f32⟩ : BufTy).Contents (Elt Ideal)) (b4 : (⟨S64, .f32⟩ : BufTy).Contents (Elt Ideal))

/-- The first affine map: entry (k, j) of x · W1 + b1. -/
theorem y1_at (k : Fin 10000) (j : Fin 64) :
    val_main_v3 (F := Ideal) x w1 b1 (ix2 k j) = Cert.Spec.y1 x w1 b1 k j := by
  rw [val_main_v3_apply, val_main_v0_apply, val_main_v2_apply, val_main_v1_apply]
  simp only [lidx_v0, ridx_v0, idx_b1, Ideal.addf_def, Cert.Spec.y1]

/-- The rectified first aggregation: entry (r, a) of max (Adj · y1) 0. -/
theorem u_at (r : Fin 10000) (a : Fin 64) :
    val_main_v5 (F := Ideal) x adj w1 b1 (ix2 r a)
      = max (∑ k : Fin 10000, adj (ix2 r k) * Cert.Spec.y1 x w1 b1 k a) 0 := by
  rw [val_main_v5_apply, val_main_v4_apply, val_main_call0_v0_apply, val_main_call0_cst_apply]
  simp only [lidx_v4, ridx_v4, y1_at, Ideal.maximumf_def, Ideal.ofBits_def, Ideal.ofBits_zero_f32]

/-- The second affine map: entry (r, j) of u · W2 + b2. -/
theorem y2_at (r : Fin 10000) (j : Fin 64) :
    val_main_v9 (F := Ideal) x adj w1 b1 w2 b2 (ix2 r j)
      = Cert.Spec.y2 adj (Cert.Spec.y1 x w1 b1) w2 b2 r j := by
  rw [val_main_v9_apply, val_main_v6_apply, val_main_v8_apply, val_main_v7_apply]
  simp only [lidx_v6, ridx_v6, idx_b2, u_at, Ideal.addf_def, Cert.Spec.y2]

/-- The embedding: entry (r, j) of Adj · y2. -/
theorem emb_at (r : Fin 10000) (j : Fin 64) :
    val_main_v10 (F := Ideal) x adj w1 b1 w2 b2 (ix2 r j) = Cert.Spec.embOf x adj w1 b1 w2 b2 r j := by
  rw [val_main_v10_apply]
  simp only [lidx_v10, ridx_v10, y2_at, Cert.Spec.embOf, Cert.Spec.emb]

/-- The head's hidden layer: entry (r, a) of max (emb · W3 + b3) 0. -/
theorem h_at (r : Fin 10000) (a : Fin 64) :
    val_main_v15 (F := Ideal) x adj w1 b1 w2 b2 w3 b3 (ix2 r a)
      = max ((∑ b : Fin 64, Cert.Spec.embOf x adj w1 b1 w2 b2 r b * w3 (ix2 b a)) + b3 (ix1 a)) 0 := by
  rw [val_main_v15_apply, val_main_v14_apply, val_main_v11_apply, val_main_v13_apply, val_main_v12_apply,
    val_main_call1_v0_apply, val_main_call1_cst_apply]
  simp only [lidx_v11, ridx_v11, idx_b3, emb_at, Ideal.addf_def, Ideal.maximumf_def, Ideal.ofBits_def,
    Ideal.ofBits_zero_f32]

/-- The projection: entry (r, j) of h · W4 + b4. -/
theorem z_at (r : Fin 10000) (j : Fin 64) :
    val_main_v19 (F := Ideal) x adj w1 b1 w2 b2 w3 b3 w4 b4 (ix2 r j)
      = Cert.Spec.z (Cert.Spec.embOf x adj w1 b1 w2 b2) w3 b3 w4 b4 r j := by
  rw [val_main_v19_apply, val_main_v16_apply, val_main_v18_apply, val_main_v17_apply]
  simp only [lidx_v16, ridx_v16, idx_b4, h_at, Ideal.addf_def, Cert.Spec.z]

/-! ## The two result arrays -/

/-- The embedding array is the specification's. -/
theorem emb_eq : val_main_v10 (F := Ideal) x adj w1 b1 w2 b2 = Cert.Spec.embA x adj w1 b1 w2 b2 := by
  funext i
  obtain ⟨r, j, rfl⟩ : ∃ (r : Fin 10000) (j : Fin 64), i = ix2 r j := ⟨i 0, i 1, eq_ix2 i⟩
  rw [emb_at]
  rfl

/-- The projected array is the specification's. -/
theorem z_eq : val_main_v19 (F := Ideal) x adj w1 b1 w2 b2 w3 b3 w4 b4
    = Cert.Spec.zA x adj w1 b1 w2 b2 w3 b3 w4 b4 := by
  funext i
  obtain ⟨r, j, rfl⟩ : ∃ (r : Fin 10000) (j : Fin 64), i = ix2 r j := ⟨i 0, i 1, eq_ix2 i⟩
  rw [z_at]
  rfl

/-! ## The run -/

/-- Every weakly fair execution of the reference ends with the projected result at the specification's projected
    array of the arguments' launch contents, the embedding result at the specification's embedding array, and the
    ten arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v19) = Cert.Spec.zA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v10) = Cert.Spec.embA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
      ⟨(h c).1.trans ((val_main_v19_eq (F := Ideal) _ _ _ _ _ _ _ _ _ _).trans (z_eq _ _ _ _ _ _ _ _ _ _)),
       (h c).2.1.trans ((val_main_v10_eq (F := Ideal) _ _ _ _ _ _).trans (emb_eq _ _ _ _ _ _)),
       (h c).2.2⟩)
    (Cert.ReferenceIdeal.Value.run (F := Ideal) m ρ)

end Cert.ReferenceIdeal.RefValue

end
-- ==== Proof.lean ====
/-
  The certificate. A two-layer dense graph convolution with a two-layer projection head, computed by one fused,
  pipelined kernel in two passes over the adjacency matrix, against the plain composition of matrix products:

      emb = Adj · (relu (Adj · (x · W1 + b1)) · W2 + b2),      z = relu (emb · W3 + b3) · W4 + b4.

  The kernel walks a grid of 2 × 25 points. In phase 0 it keeps y1 = x · W1 + b1 in a scratch buffer (computed at the
  first point) and fills a second scratch, 400 rows per point, with y2 = relu (Adj · y1) · W2 + b2; in phase 1 it
  computes, 400 rows per point, emb = Adj · y2 and the head's z, and only these blocks are written back. Read at the
  exact values, where a change of float format is the identity and a matrix product into a zero accumulator is a
  finite sum of products, every entry of the kernel's two results is the same nested sum as the reference's: the
  two programs differ in the tiling of the rows, in the moment y1 and y2 are computed, and in the spelling of the
  bias rows, none of which changes a sum. No step uses distributivity or cancellation, so the finiteness of the
  inputs is never needed.

  The parts: the frames of the two kernel programs (every execution terminates without fault and leaves the
  arguments unchanged) come from the body's run in its three cases of the grid's conditionals, an invariant that
  tracks the two scratch buffers point by point, and the pipeline's launch theorem; the kernel's results are read
  off the same run as the blocks written back in phase 1; the reference's results are its run read one operation at a
  time; both are identified with one specification (Proof/Spec.lean) entry by entry.
-/
import proofs.«120598_g45758581572075_cont_8to1_c_881_8_alg».proof.Defs
import proofs.«120598_g45758581572075_cont_8to1_c_881_8_alg».proof.Proof.Gen.Kernel
import proofs.«120598_g45758581572075_cont_8to1_c_881_8_alg».proof.Proof.Gen.KernelIdeal
import proofs.«120598_g45758581572075_cont_8to1_c_881_8_alg».proof.Proof.Gen.ReferenceIdeal
import proofs.«120598_g45758581572075_cont_8to1_c_881_8_alg».proof.Proof.Gen.Pre_finite_inputs
import proofs.«120598_g45758581572075_cont_8to1_c_881_8_alg».proof.Proof.K.Main
import proofs.«120598_g45758581572075_cont_8to1_c_881_8_alg».proof.Proof.KI.Value
import proofs.«120598_g45758581572075_cont_8to1_c_881_8_alg».proof.Proof.KI.Bridge
import proofs.«120598_g45758581572075_cont_8to1_c_881_8_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without fault and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- The same program read at the exact values. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference terminates without fault and leaves its arguments unchanged: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RefValue.run m ρ)

/-- From memories that agree on the ten arguments, both programs end with the projected result at the
    specification's projected array of those arguments and the embedding at its embedding array. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.zA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Spec.embA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Bridge.zK_eq m c), (h c).2.1.trans (Cert.KernelIdeal.Bridge.embK_eq m c), (h c).2.2⟩)
      (Cert.KernelIdeal.Hand.run_value (F := Ideal) m ρ)
  · refine (θ_run Cert.ReferenceIdeal.defs _ _).mono (fun _ h c => ⟨(h c).1.trans ?_, (h c).2.1.trans ?_, (h c).2.2⟩)
      (Cert.ReferenceIdeal.RefValue.run m' ρ')
    · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    · rw [(hagree c).1, (hagree c).2.1, (hagree c).2.2.1, (hagree c).2.2.2.1, (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
